-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S100000x256 : Shape := ⟨2, ![100000, 256]⟩
abbrev S300000 : Shape := ⟨1, ![300000]⟩
abbrev S512x256 : Shape := ⟨2, ![512, 256]⟩
abbrev S256 : Shape := ⟨1, ![256]⟩
abbrev S256x256 : Shape := ⟨2, ![256, 256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S100000x256 : S_.BroadcastsInDim S100000x256 (![] : Fin 0 → Fin S100000x256.rank)
  reducesTo_S100000x256_S_d0_1 : S100000x256.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S300000 : S_.BroadcastsInDim S300000 (![] : Fin 0 → Fin S300000.rank)
  reducesTo_S300000_S_d0 : S300000.ReducesTo [0] S_

variable [Facts]

def fn_part3 {F : FTy → Type} [FloatOps F] (main_arg2 : IVec S300000 32) (main_arg3 : IVec S300000 32) (main_v48 : IVec S_ 1) (main_v50 : IVec S300000 1) : IVec S_ 1 :=
  let main_c_19 : IVec S_ 32 := constantI S_ 32 10000#32
  let main_v51 : IVec S300000 32 := broadcastInDim S300000 ![] bcast_S_S300000 main_c_19
  let main_v52 : IVec S300000 1 := cmpi .slt main_arg2 main_v51
  let main_v53 : IVec S300000 1 := andi main_v50 main_v52
  let main_c_20 : IVec S_ 1 := constantI S_ 1 1#1
  let main_v54 : IVec S_ 1 := (fun x v => Host.reduce IntOp.andi x v reducesTo_S300000_S_d0 h_S_) main_v53 main_c_20
  let main_v55 : IVec S_ 1 := andi main_v48 main_v54
  let main_c_21 : IVec S_ 32 := constantI S_ 32 0#32
  let main_v56 : IVec S300000 32 := broadcastInDim S300000 ![] bcast_S_S300000 main_c_21
  let main_v57 : IVec S300000 1 := cmpi .sge main_arg3 main_v56
  let main_c_22 : IVec S_ 32 := constantI S_ 32 100000#32
  let main_v58 : IVec S300000 32 := broadcastInDim S300000 ![] bcast_S_S300000 main_c_22
  let main_v59 : IVec S300000 1 := cmpi .slt main_arg3 main_v58
  let main_v60 : IVec S300000 1 := andi main_v57 main_v59
  let main_c_23 : IVec S_ 1 := constantI S_ 1 1#1
  let main_v61 : IVec S_ 1 := (fun x v => Host.reduce IntOp.andi x v reducesTo_S300000_S_d0 h_S_) main_v60 main_c_23
  let main_v62 : IVec S_ 1 := andi main_v55 main_v61
  main_v62

def fn_part2 {F : FTy → Type} [FloatOps F] (main_arg2 : IVec S300000 32) (main_arg3 : IVec S300000 32) (main_arg9 : FVec F S256 .f32) (main_arg10 : FVec F S256x256 .f32) (main_arg11 : FVec F S256 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg10
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg11
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_c_18 : IVec S_ 32 := constantI S_ 32 0#32
  let main_v49 : IVec S300000 32 := broadcastInDim S300000 ![] bcast_S_S300000 main_c_18
  let main_v50 : IVec S300000 1 := cmpi .sge main_arg2 main_v49
  fn_part3 (F := F) main_arg2 main_arg3 main_v48 main_v50

def fn_part1 {F : FTy → Type} [FloatOps F] (main_arg2 : IVec S300000 32) (main_arg3 : IVec S300000 32) (main_arg6 : FVec F S256x256 .f32) (main_arg7 : FVec F S256 .f32) (main_arg8 : FVec F S512x256 .f32) (main_arg9 : FVec F S256 .f32) (main_arg10 : FVec F S256x256 .f32) (main_arg11 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S512x256 .f32 := Host.absf main_arg8
  let main_cst_10 : FVec F S_ .f32 := constant S_ .f32 0x7F800000#32
  let main_v30 : FVec F S512x256 .f32 := broadcastInDim S512x256 ![] bcast_S_S512x256 main_cst_10
  let main_v31 : IVec S512x256 1 := cmpf .olt main_v29 main_v30
  let main_c_11 : IVec S_ 1 := constantI S_ 1 1#1
  let main_v32 : IVec S_ 1 := (fun x v => Host.reduce IntOp.andi x v reducesTo_S512x256_S_d0_1 h_S_) main_v31 main_c_11
  let main_v33 : IVec S_ 1 := andi main_v28 main_v32
  fn_part2 (F := F) main_arg2 main_arg3 main_arg9 main_arg10 main_arg11 main_v33

def fn {F : FTy → Type} [FloatOps F] (main_arg0 : FVec F S10000x256 .f32) (main_arg1 : FVec F S100000x256 .f32) (main_arg2 : IVec S300000 32) (main_arg3 : IVec S300000 32) (main_arg4 : FVec F S512x256 .f32) (main_arg5 : FVec F S256 .f32) (main_arg6 : FVec F S256x256 .f32) (main_arg7 : FVec F S256 .f32) (main_arg8 : FVec F S512x256 .f32) (main_arg9 : FVec F S256 .f32) (main_arg10 : FVec F S256x256 .f32) (main_arg11 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S100000x256 .f32 := Host.absf main_arg1
  let main_cst_0 : FVec F S_ .f32 := constant S_ .f32 0x7F800000#32
  let main_v5 : FVec F S100000x256 .f32 := broadcastInDim S100000x256 ![] bcast_S_S100000x256 main_cst_0
  let main_v6 : IVec S100000x256 1 := cmpf .olt main_v4 main_v5
  let main_c_1 : IVec S_ 1 := constantI S_ 1 1#1
  let main_v7 : IVec S_ 1 := (fun x v => Host.reduce IntOp.andi x v reducesTo_S100000x256_S_d0_1 h_S_) main_v6 main_c_1
  let main_v8 : IVec S_ 1 := andi main_v3 main_v7
  let main_v9 : FVec F S512x256 .f32 := Host.absf main_arg4
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg2 main_arg3 main_arg6 main_arg7 main_arg8 main_arg9 main_arg10 main_arg11 main_v13 main_v16
-- ==== Kernel.lean ====
abbrev S10000x256 : Shape := ⟨2, ![10000, 256]⟩
abbrev S100000x256 : Shape := ⟨2, ![100000, 256]⟩
abbrev S300000 : Shape := ⟨1, ![300000]⟩
abbrev S512x256 : Shape := ⟨2, ![512, 256]⟩
abbrev S256 : Shape := ⟨1, ![256]⟩
abbrev S256x256 : Shape := ⟨2, ![256, 256]⟩
abbrev S_ : Shape := ⟨0, ![]⟩
abbrev S300000x1 : Shape := ⟨2, ![300000, 1]⟩
abbrev S1 : Shape := ⟨1, ![1]⟩
abbrev S1x1 : Shape := ⟨2, ![1, 1]⟩
abbrev S300000x256 : Shape := ⟨2, ![300000, 256]⟩
abbrev S1x256 : Shape := ⟨2, ![1, 256]⟩
abbrev S4000x256 : Shape := ⟨2, ![4000, 256]⟩
abbrev S5000x256 : Shape := ⟨2, ![5000, 256]⟩

abbrev nBuf : Space → Nat
  | .hbm => 72
  | .vmem => 22
  | .smem => 0
  | _ => 0

abbrev bufTy : (tb : Table) → Fin (tcTables nBuf tb) → BufTy
  | .hbm, ⟨0, _⟩ => ⟨S10000x256, .f32⟩
  | .hbm, ⟨1, _⟩ => ⟨S100000x256, .f32⟩
  | .hbm, ⟨2, _⟩ => ⟨S300000, .i32⟩
  | .hbm, ⟨3, _⟩ => ⟨S300000, .i32⟩
  | .hbm, ⟨4, _⟩ => ⟨S512x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S512x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S_, .i32⟩
  | .hbm, ⟨13, _⟩ => ⟨S300000, .i32⟩
  | .hbm, ⟨14, _⟩ => ⟨S300000, .i1⟩
  | .hbm, ⟨15, _⟩ => ⟨S_, .i32⟩
  | .hbm, ⟨16, _⟩ => ⟨S300000, .i32⟩
  | .hbm, ⟨17, _⟩ => ⟨S300000, .i32⟩
  | .hbm, ⟨18, _⟩ => ⟨S300000, .i32⟩
  | .hbm, ⟨19, _⟩ => ⟨S300000x1, .i32⟩
  | .hbm, ⟨20, _⟩ => ⟨S1, .i32⟩
  | .hbm, ⟨21, _⟩ => ⟨S_, .i32⟩
  | .hbm, ⟨22, _⟩ => ⟨S300000x1, .i32⟩
  | .hbm, ⟨23, _⟩ => ⟨S300000x1, .i1⟩
  | .hbm, ⟨24, _⟩ => ⟨S1x1, .i32⟩
  | .hbm, ⟨25, _⟩ => ⟨S300000x1, .i32⟩
  | .hbm, ⟨26, _⟩ => ⟨S300000x1, .i1⟩
  | .hbm, ⟨27, _⟩ => ⟨S300000x1, .i1⟩
  | .hbm, ⟨28, _⟩ => ⟨S_, .i1⟩
  | .hbm, ⟨29, _⟩ => ⟨S300000, .i1⟩
  | .hbm, ⟨30, _⟩ => ⟨S300000x256, .f32⟩
  | .hbm, ⟨31, _⟩ => ⟨S300000x256, .i1⟩
  | .hbm, ⟨32, _⟩ => ⟨S_, .f32⟩
  | .hbm, ⟨33, _⟩ => ⟨S300000x256, .f32⟩
  | .hbm, ⟨34, _⟩ => ⟨S300000x256, .f32⟩
  | .hbm, ⟨35, _⟩ => ⟨S_, .i32⟩
  | .hbm, ⟨36, _⟩ => ⟨S300000, .i32⟩
  | .hbm, ⟨37, _⟩ => ⟨S300000, .i1⟩
  | .hbm, ⟨38, _⟩ => ⟨S_, .i32⟩
  | .hbm, ⟨39, _⟩ => ⟨S300000, .i32⟩
  | .hbm, ⟨40, _⟩ => ⟨S300000, .i32⟩
  | .hbm, ⟨41, _⟩ => ⟨S300000, .i32⟩
  | .hbm, ⟨42, _⟩ => ⟨S300000x1, .i32⟩
  | .hbm, ⟨43, _⟩ => ⟨S1, .i32⟩
  | .hbm, ⟨44, _⟩ => ⟨S_, .i32⟩
  | .hbm, ⟨45, _⟩ => ⟨S300000x1, .i32⟩
  | .hbm, ⟨46, _⟩ => ⟨S300000x1, .i1⟩
  | .hbm, ⟨47, _⟩ => ⟨S1x1, .i32⟩
  | .hbm, ⟨48, _⟩ => ⟨S300000x1, .i32⟩
  | .hbm, ⟨49, _⟩ => ⟨S300000x1, .i1⟩
  | .hbm, ⟨50, _⟩ => ⟨S300000x1, .i1⟩
  | .hbm, ⟨51, _⟩ => ⟨S_, .i1⟩
  | .hbm, ⟨52, _⟩ => ⟨S300000, .i1⟩
  | .hbm, ⟨53, _⟩ => ⟨S300000x256, .f32⟩
  | .hbm, ⟨54, _⟩ => ⟨S300000x256, .i1⟩
  | .hbm, ⟨55, _⟩ => ⟨S_, .f32⟩
  | .hbm, ⟨56, _⟩ => ⟨S300000x256, .f32⟩
  | .hbm, ⟨57, _⟩ => ⟨S300000x256, .f32⟩
  | .hbm, ⟨58, _⟩ => ⟨S256x256, .f32⟩
  | .hbm, ⟨59, _⟩ => ⟨S256x256, .f32⟩
  | .hbm, ⟨60, _⟩ => ⟨S1x256, .f32⟩
  | .hbm, ⟨61, _⟩ => ⟨S1x256, .f32⟩
  | .hbm, ⟨62, _⟩ => ⟨S300000x256, .f32⟩
  | .hbm, ⟨63, _⟩ => ⟨S_, .f32⟩
  | .hbm, ⟨64, _⟩ => ⟨S100000x256, .f32⟩
  | .hbm, ⟨65, _⟩ => ⟨S300000x1, .i32⟩
  | .hbm, ⟨66, _⟩ => ⟨S100000x256, .f32⟩
  | .hbm, ⟨67, _⟩ => ⟨S256x256, .f32⟩
  | .hbm, ⟨68, _⟩ => ⟨S256x256, .f32⟩
  | .hbm, ⟨69, _⟩ => ⟨S1x256, .f32⟩
  | .hbm, ⟨70, _⟩ => ⟨S1x256, .f32⟩
  | .hbm, ⟨71, _⟩ => ⟨S100000x256, .f32⟩
  | .local _ .vmem, ⟨0, _⟩ => ⟨S4000x256, .f32⟩
  | .local _ .vmem, ⟨1, _⟩ => ⟨S4000x256, .f32⟩
  | .local _ .vmem, ⟨2, _⟩ => ⟨S4000x256, .f32⟩
  | .local _ .vmem, ⟨3, _⟩ => ⟨S4000x256, .f32⟩
  | .local _ .vmem, ⟨4, _⟩ => ⟨S256x256, .f32⟩
  | .local _ .vmem, ⟨5, _⟩ => ⟨S256x256, .f32⟩
  | .local _ .vmem, ⟨6, _⟩ => ⟨S1x256, .f32⟩
  | .local _ .vmem, ⟨7, _⟩ => ⟨S256x256, .f32⟩
  | .local _ .vmem, ⟨8, _⟩ => ⟨S1x256, .f32⟩
  | .local _ .vmem, ⟨9, _⟩ => ⟨S4000x256, .f32⟩
  | .local _ .vmem, ⟨10, _⟩ => ⟨S4000x256, .f32⟩
  | .local _ .vmem, ⟨11, _⟩ => ⟨S5000x256, .f32⟩
  | .local _ .vmem, ⟨12, _⟩ => ⟨S5000x256, .f32⟩
  | .local _ .vmem, ⟨13, _⟩ => ⟨S5000x256, .f32⟩
  | .local _ .vmem, ⟨14, _⟩ => ⟨S5000x256, .f32⟩
  | .local _ .vmem, ⟨15, _⟩ => ⟨S256x256, .f32⟩
  | .local _ .vmem, ⟨16, _⟩ => ⟨S256x256, .f32⟩
  | .local _ .vmem, ⟨17, _⟩ => ⟨S1x256, .f32⟩
  | .local _ .vmem, ⟨18, _⟩ => ⟨S256x256, .f32⟩
  | .local _ .vmem, ⟨19, _⟩ => ⟨S1x256, .f32⟩
  | .local _ .vmem, ⟨20, _⟩ => ⟨S5000x256, .f32⟩
  | .local _ .vmem, ⟨21, _⟩ => ⟨S5000x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v0 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_call1_cst : Ref sig .tc := ⟨.hbm, 55, rfl⟩
abbrev main_call1_v15 : Ref sig .tc := ⟨.hbm, 56, rfl⟩
abbrev main_v1 : Ref sig .tc := ⟨.hbm, 57, rfl⟩
abbrev main_v2 : Ref sig .tc := ⟨.hbm, 58, rfl⟩
abbrev main_v3 : Ref sig .tc := ⟨.hbm, 59, rfl⟩
abbrev main_v4 : Ref sig .tc := ⟨.hbm, 60, rfl⟩
abbrev main_v5 : Ref sig .tc := ⟨.hbm, 61, rfl⟩
abbrev main_v6 : Ref sig .tc := ⟨.hbm, 62, rfl⟩
abbrev main_cst : Ref sig .tc := ⟨.hbm, 63, rfl⟩
abbrev main_v7 : Ref sig .tc := ⟨.hbm, 64, rfl⟩
abbrev main_v8 : Ref sig .tc := ⟨.hbm, 65, rfl⟩
abbrev main_v9 : Ref sig .tc := ⟨.hbm, 66, rfl⟩
abbrev main_v10 : Ref sig .tc := ⟨.hbm, 67, rfl⟩
abbrev main_v11 : Ref sig .tc := ⟨.hbm, 68, rfl⟩
abbrev main_v12 : Ref sig .tc := ⟨.hbm, 69, rfl⟩
abbrev main_v13 : Ref sig .tc := ⟨.hbm, 70, rfl⟩
abbrev main_v14 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨1, ![75], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bcast_S_S300000 : S_.BroadcastsInDim S300000 (![] : Fin 0 → Fin S300000.rank)
  bcast_S300000_S300000x1_0 : S300000.BroadcastsInDim S300000x1 (![0] : Fin 1 → Fin S300000x1.rank)
  bcast_S_S300000x1 : S_.BroadcastsInDim S300000x1 (![] : Fin 0 → Fin S300000x1.rank)
  bcast_S1_S1x1_1 : S1.BroadcastsInDim S1x1 (![1] : Fin 1 → Fin S1x1.rank)
  bcast_S1x1_S300000x1_0_1 : S1x1.BroadcastsInDim S300000x1 (![0, 1] : Fin 2 → Fin S300000x1.rank)
  reducesTo_S300000x1_S300000_d1 : S300000x1.ReducesTo [1] S300000
  h_S_ : 0 < S_.numel
  bcast_S300000_S300000x256_0 : S300000.BroadcastsInDim S300000x256 (![0] : Fin 1 → Fin S300000x256.rank)
  bcast_S_S300000x256 : S_.BroadcastsInDim S300000x256 (![] : Fin 0 → Fin S300000x256.rank)
  slices_S512x256_S256x256_0_0 : S512x256.Slices ![0, 0] S256x256
  slices_S512x256_S256x256_256_0 : S512x256.Slices ![256, 0] S256x256
  shapeCasts_S256_S1x256 : S256.ShapeCasts S1x256
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  bcast_S_S100000x256 : S_.BroadcastsInDim S100000x256 (![] : Fin 0 → Fin S100000x256.rank)
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  broadcasts_S1x256_S5000x256 : S1x256.Broadcasts S5000x256
  gather_S10000x256_S300000x1_S300000x256_1_0_n_n_0_1_1256_wf : GatherDims.WF S10000x256 S300000x1 S300000x256 [1] [0] [] [0] [] 1 ![1, 256]
  gather_S100000x256_S300000x1_S300000x256_1_0_n_n_0_1_1256_wf : GatherDims.WF S100000x256 S300000x1 S300000x256 [1] [0] [] [0] [] 1 ![1, 256]
  dot_S4000x256_S256x256_S4000x256_1_0_0_1_n_n_wf : DotDims.WF S4000x256 S256x256 S4000x256 [1] [0] [0] [1] [] []
  scatter_S100000x256_S300000x1_S300000x256_1_0_0_1_wf : ScatterDims.WF S100000x256 S300000x1 S300000x256 [1] [0] [0] 1
  dot_S5000x256_S256x256_S5000x256_1_0_0_1_n_n_wf : DotDims.WF S5000x256 S256x256 S5000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S300000x256.size a
  hwx0_0 : ∀ i : grid0.Coords, EltTy.bits .f32 = 32 ∨ (Rect.block (s := S300000x256) S4000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x256.size a ≤ S300000x256.size a
  hwx0_1 : ∀ i : grid0.Coords, EltTy.bits .f32 = 32 ∨ (Rect.block (s := S300000x256) S4000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x256.size a ≤ S300000x256.size a
  hwx0_7 : ∀ i : grid0.Coords, EltTy.bits .f32 = 32 ∨ (Rect.block (s := S300000x256) S4000x256.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S100000x256.size a
  hwx1_0 : ∀ i : grid1.Coords, EltTy.bits .f32 = 32 ∨ (Rect.block (s := S100000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x256.size a ≤ S100000x256.size a
  hwx1_1 : ∀ i : grid1.Coords, EltTy.bits .f32 = 32 ∨ (Rect.block (s := S100000x256) S5000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .f32 = 32 ∨ (Rect.block (s := S256x256) S256x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x256.size a ≤ S100000x256.size a
  hwx1_7 : ∀ i : grid1.Coords, EltTy.bits .f32 = 32 ∨ (Rect.block (s := S100000x256) S5000x256.size (cc1_transform_7 i) (hinb1_7 i)).WholeWords (EltTy.packing .f32)

variable [Facts₀]

def gather_S10000x256_S300000x1_S300000x256_1_0_n_n_0_1_1256 : GatherDims S10000x256 S300000x1 S300000x256 where
  offsetDims := [1]
  collapsedSliceDims := [0]
  operandBatchingDims := []
  startIndicesBatchingDims := []
  startIndexMap := [0]
  indexVectorDim := 1
  sliceSizes := ![1, 256]
  wf := gather_S10000x256_S300000x1_S300000x256_1_0_n_n_0_1_1256_wf
def gather_S100000x256_S300000x1_S300000x256_1_0_n_n_0_1_1256 : GatherDims S100000x256 S300000x1 S300000x256 where
  offsetDims := [1]
  collapsedSliceDims := [0]
  operandBatchingDims := []
  startIndicesBatchingDims := []
  startIndexMap := [0]
  indexVectorDim := 1
  sliceSizes := ![1, 256]
  wf := gather_S100000x256_S300000x1_S300000x256_1_0_n_n_0_1_1256_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def scatter_S100000x256_S300000x1_S300000x256_1_0_0_1 : ScatterDims S100000x256 S300000x1 S300000x256 where
  updateWindowDims := [1]
  insertedWindowDims := [0]
  scatterDimsToOperandDims := [0]
  indexVectorDim := 1
  wf := scatter_S100000x256_S300000x1_S300000x256_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf

abbrev win0_0 : Pipeline.Window sig grid0 :=
  Pipeline.Window.ofSpec (Memref.whole main_v0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S4000x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg1) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S5000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v13) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v14) S5000x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S10000x256 : Shape := ⟨2, ![10000, 256]⟩
abbrev S100000x256 : Shape := ⟨2, ![100000, 256]⟩
abbrev S300000 : Shape := ⟨1, ![300000]⟩
abbrev S512x256 : Shape := ⟨2, ![512, 256]⟩
abbrev S256 : Shape := ⟨1, ![256]⟩
abbrev S256x256 : Shape := ⟨2, ![256, 256]⟩
abbrev S_ : Shape := ⟨0, ![]⟩
abbrev S300000x1 : Shape := ⟨2, ![300000, 1]⟩
abbrev S300000x256 : Shape := ⟨2, ![300000, 256]⟩
abbrev S300000x512 : Shape := ⟨2, ![300000, 512]⟩
abbrev S1x256 : Shape := ⟨2, ![1, 256]⟩
abbrev S100000x512 : Shape := ⟨2, ![100000, 512]⟩

abbrev nBuf : Space → Nat
  | .hbm => 59
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S100000x256, .f32⟩
  | .hbm, ⟨2, _⟩ => ⟨S300000, .i32⟩
  | .hbm, ⟨3, _⟩ => ⟨S300000, .i32⟩
  | .hbm, ⟨4, _⟩ => ⟨S512x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S512x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S_, .i32⟩
  | .hbm, ⟨13, _⟩ => ⟨S300000, .i32⟩
  | .hbm, ⟨14, _⟩ => ⟨S300000, .i1⟩
  | .hbm, ⟨15, _⟩ => ⟨S_, .i32⟩
  | .hbm, ⟨16, _⟩ => ⟨S300000, .i32⟩
  | .hbm, ⟨17, _⟩ => ⟨S300000, .i32⟩
  | .hbm, ⟨18, _⟩ => ⟨S300000, .i32⟩
  | .hbm, ⟨19, _⟩ => ⟨S300000x1, .i32⟩
  | .hbm, ⟨20, _⟩ => ⟨S300000x256, .f32⟩
  | .hbm, ⟨21, _⟩ => ⟨S_, .i32⟩
  | .hbm, ⟨22, _⟩ => ⟨S300000, .i32⟩
  | .hbm, ⟨23, _⟩ => ⟨S300000, .i1⟩
  | .hbm, ⟨24, _⟩ => ⟨S_, .i32⟩
  | .hbm, ⟨25, _⟩ => ⟨S300000, .i32⟩
  | .hbm, ⟨26, _⟩ => ⟨S300000, .i32⟩
  | .hbm, ⟨27, _⟩ => ⟨S300000, .i32⟩
  | .hbm, ⟨28, _⟩ => ⟨S300000x1, .i32⟩
  | .hbm, ⟨29, _⟩ => ⟨S300000x256, .f32⟩
  | .hbm, ⟨30, _⟩ => ⟨S300000x512, .f32⟩
  | .hbm, ⟨31, _⟩ => ⟨S300000x256, .f32⟩
  | .hbm, ⟨32, _⟩ => ⟨S1x256, .f32⟩
  | .hbm, ⟨33, _⟩ => ⟨S300000x256, .f32⟩
  | .hbm, ⟨34, _⟩ => ⟨S300000x256, .f32⟩
  | .hbm, ⟨35, _⟩ => ⟨S_, .f32⟩
  | .hbm, ⟨36, _⟩ => ⟨S300000x256, .f32⟩
  | .hbm, ⟨37, _⟩ => ⟨S300000x256, .f32⟩
  | .hbm, ⟨38, _⟩ => ⟨S300000x256, .f32⟩
  | .hbm, ⟨39, _⟩ => ⟨S1x256, .f32⟩
  | .hbm, ⟨40, _⟩ => ⟨S300000x256, .f32⟩
  | .hbm, ⟨41, _⟩ => ⟨S300000x256, .f32⟩
  | .hbm, ⟨42, _⟩ => ⟨S_, .f32⟩
  | .hbm, ⟨43, _⟩ => ⟨S100000x256, .f32⟩
  | .hbm, ⟨44, _⟩ => ⟨S300000x1, .i32⟩
  | .hbm, ⟨45, _⟩ => ⟨S100000x256, .f32⟩
  | .hbm, ⟨46, _⟩ => ⟨S100000x512, .f32⟩
  | .hbm, ⟨47, _⟩ => ⟨S100000x256, .f32⟩
  | .hbm, ⟨48, _⟩ => ⟨S1x256, .f32⟩
  | .hbm, ⟨49, _⟩ => ⟨S100000x256, .f32⟩
  | .hbm, ⟨50, _⟩ => ⟨S100000x256, .f32⟩
  | .hbm, ⟨51, _⟩ => ⟨S_, .f32⟩
  | .hbm, ⟨52, _⟩ => ⟨S100000x256, .f32⟩
  | .hbm, ⟨53, _⟩ => ⟨S100000x256, .f32⟩
  | .hbm, ⟨54, _⟩ => ⟨S100000x256, .f32⟩
  | .hbm, ⟨55, _⟩ => ⟨S1x256, .f32⟩
  | .hbm, ⟨56, _⟩ => ⟨S100000x256, .f32⟩
  | .hbm, ⟨57, _⟩ => ⟨S100000x256, .f32⟩
  | .hbm, ⟨58, _⟩ => ⟨S100000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_call0_cst : Ref sig .tc := ⟨.hbm, 35, rfl⟩
abbrev main_call0_v0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_call1_cst : Ref sig .tc := ⟨.hbm, 51, rfl⟩
abbrev main_call1_v0 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩

abbrev nD : Nat := 1
abbrev τ : Topo := Topo.v7x

variable {F : FTy → Type} [FloatOps F]

class Facts₀ : Prop where
  bcast_S_S300000 : S_.BroadcastsInDim S300000 (![] : Fin 0 → Fin S300000.rank)
  bcast_S300000_S300000x1_0 : S300000.BroadcastsInDim S300000x1 (![0] : Fin 1 → Fin S300000x1.rank)
  concatenates_S300000x256_S300000x256_S300000x512_d1 : Shape.Concatenates [S300000x256, S300000x256] S300000x512 1
  bcast_S256_S1x256_1 : S256.BroadcastsInDim S1x256 (![1] : Fin 1 → Fin S1x256.rank)
  bcast_S1x256_S300000x256_0_1 : S1x256.BroadcastsInDim S300000x256 (![0, 1] : Fin 2 → Fin S300000x256.rank)
  bcast_S_S300000x256 : S_.BroadcastsInDim S300000x256 (![] : Fin 0 → Fin S300000x256.rank)
  bcast_S_S100000x256 : S_.BroadcastsInDim S100000x256 (![] : Fin 0 → Fin S100000x256.rank)
  concatenates_S100000x256_S100000x256_S100000x512_d1 : Shape.Concatenates [S100000x256, S100000x256] S100000x512 1
  bcast_S1x256_S100000x256_0_1 : S1x256.BroadcastsInDim S100000x256 (![0, 1] : Fin 2 → Fin S100000x256.rank)
  gather_S10000x256_S300000x1_S300000x256_1_0_n_n_0_1_1256_wf : GatherDims.WF S10000x256 S300000x1 S300000x256 [1] [0] [] [0] [] 1 ![1, 256]
  gather_S100000x256_S300000x1_S300000x256_1_0_n_n_0_1_1256_wf : GatherDims.WF S100000x256 S300000x1 S300000x256 [1] [0] [] [0] [] 1 ![1, 256]
  dot_S300000x512_S512x256_S300000x256_1_0_0_1_n_n_wf : DotDims.WF S300000x512 S512x256 S300000x256 [1] [0] [0] [1] [] []
  dot_S300000x256_S256x256_S300000x256_1_0_0_1_n_n_wf : DotDims.WF S300000x256 S256x256 S300000x256 [1] [0] [0] [1] [] []
  scatter_S100000x256_S300000x1_S300000x256_1_0_0_1_wf : ScatterDims.WF S100000x256 S300000x1 S300000x256 [1] [0] [0] 1
  dot_S100000x512_S512x256_S100000x256_1_0_0_1_n_n_wf : DotDims.WF S100000x512 S512x256 S100000x256 [1] [0] [0] [1] [] []
  dot_S100000x256_S256x256_S100000x256_1_0_0_1_n_n_wf : DotDims.WF S100000x256 S256x256 S100000x256 [1] [0] [0] [1] [] []

variable [Facts₀]

def gather_S10000x256_S300000x1_S300000x256_1_0_n_n_0_1_1256 : GatherDims S10000x256 S300000x1 S300000x256 where
  offsetDims := [1]
  collapsedSliceDims := [0]
  operandBatchingDims := []
  startIndicesBatchingDims := []
  startIndexMap := [0]
  indexVectorDim := 1
  sliceSizes := ![1, 256]
  wf := gather_S10000x256_S300000x1_S300000x256_1_0_n_n_0_1_1256_wf
def gather_S100000x256_S300000x1_S300000x256_1_0_n_n_0_1_1256 : GatherDims S100000x256 S300000x1 S300000x256 where
  offsetDims := [1]
  collapsedSliceDims := [0]
  operandBatchingDims := []
  startIndicesBatchingDims := []
  startIndexMap := [0]
  indexVectorDim := 1
  sliceSizes := ![1, 256]
  wf := gather_S100000x256_S300000x1_S300000x256_1_0_n_n_0_1_1256_wf
def dot_S300000x512_S512x256_S300000x256_1_0_0_1_n_n : DotDims S300000x512 S512x256 S300000x256 where
  lhsContracting := [1]
  rhsContracting := [0]
  lhsNonContracting := [0]
  rhsNonContracting := [1]
  lhsBatch := []
  rhsBatch := []
  wf := dot_S300000x512_S512x256_S300000x256_1_0_0_1_n_n_wf
def dot_S300000x256_S256x256_S300000x256_1_0_0_1_n_n : DotDims S300000x256 S256x256 S300000x256 where
  lhsContracting := [1]
  rhsContracting := [0]
  lhsNonContracting := [0]
  rhsNonContracting := [1]
  lhsBatch := []
  rhsBatch := []
  wf := dot_S300000x256_S256x256_S300000x256_1_0_0_1_n_n_wf
def scatter_S100000x256_S300000x1_S300000x256_1_0_0_1 : ScatterDims S100000x256 S300000x1 S300000x256 where
  updateWindowDims := [1]
  insertedWindowDims := [0]
  scatterDimsToOperandDims := [0]
  indexVectorDim := 1
  wf := scatter_S100000x256_S300000x1_S300000x256_1_0_0_1_wf
def dot_S100000x512_S512x256_S100000x256_1_0_0_1_n_n : DotDims S100000x512 S512x256 S100000x256 where
  lhsContracting := [1]
  rhsContracting := [0]
  lhsNonContracting := [0]
  rhsNonContracting := [1]
  lhsBatch := []
  rhsBatch := []
  wf := dot_S100000x512_S512x256_S100000x256_1_0_0_1_n_n_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf

class Facts : Prop extends Facts₀ where

variable [Facts]
-- ==== Proof.Spec.lean ====
/-
  The arithmetic both programs share, stated once over plain coordinates.

  Each program sends an edge's two feature rows (its mesh endpoint's and its grid endpoint's, 256 numbers each)
  through a perceptron with one hidden layer: a linear map of the 512 concatenated features, a bias, a rectifier,
  a second linear map and a second bias. One program applies the first linear map to the concatenated row
  against the whole 512-row weight matrix; the other applies it to the two halves against the two halves of
  the matrix and adds the products. On the extended reals these are one number: a sum over 512 terms is the sum
  of its first 256 and its last 256 terms, by associativity and commutativity of addition alone, so no
  finiteness of the summands is used.
-/
import Idealize.ShloMosaic.PureOps.Ideal
import Mathlib.Algebra.BigOperators.Fin

noncomputable section

open scoped BigOperators

namespace Cert.MeshGrid

/-- One output entry of the two-layer perceptron on a row whose 512 features come as two halves `a` and `b`, the
    first layer's weights as the matching halves `w1t` and `w1b`: column `q` of
    `relu (a · w1t + b · w1b + b1) · w2 + b2`. -/
def mlpRow (a b : Fin 256 → EReal) (w1t w1b : Fin 256 → Fin 256 → EReal) (b1 : Fin 256 → EReal)
    (w2 : Fin 256 → Fin 256 → EReal) (b2 : Fin 256 → EReal) (q : Fin 256) : EReal :=
  (∑ h : Fin 256, max ((∑ k : Fin 256, a k * w1t k h + ∑ k : Fin 256, b k * w1b k h) + b1 h) 0 * w2 h q) + b2 q

/-- The same entry with the first layer applied to the whole 512-feature row `x` against the whole matrix `w1`. -/
def mlpRowCat (x : Fin 512 → EReal) (w1 : Fin 512 → Fin 256 → EReal) (b1 : Fin 256 → EReal)
    (w2 : Fin 256 → Fin 256 → EReal) (b2 : Fin 256 → EReal) (q : Fin 256) : EReal :=
  (∑ h : Fin 256, max ((∑ k : Fin 512, x k * w1 k h) + b1 h) 0 * w2 h q) + b2 q

/-- The lower half of the 512 positions. -/
def lo (k : Fin 256) : Fin 512 := ⟨k.val, by omega⟩
/-- The upper half of the 512 positions. -/
def hi (k : Fin 256) : Fin 512 := ⟨256 + k.val, by omega⟩

/-- A sum over 512 positions is the sum over the lower half plus the sum over the upper half. -/
theorem sum_halves (f : Fin 512 → EReal) : ∑ k : Fin 512, f k = ∑ k : Fin 256, f (lo k) + ∑ k : Fin 256, f (hi k) := by
  have h := Fin.sum_univ_add (M := EReal) (a := 256) (b := 256) (fun i => f i)
  refine h.trans ?_
  rfl

/-- The perceptron on a concatenated row is the perceptron on its two halves against the two halves of the first
    weight matrix. -/
theorem mlpRowCat_eq (x : Fin 512 → EReal) (w1 : Fin 512 → Fin 256 → EReal) (b1 : Fin 256 → EReal)
    (w2 : Fin 256 → Fin 256 → EReal) (b2 : Fin 256 → EReal) (q : Fin 256) :
    mlpRowCat x w1 b1 w2 b2 q
      = mlpRow (fun k => x (lo k)) (fun k => x (hi k)) (fun k h => w1 (lo k) h) (fun k h => w1 (hi k) h) b1 w2 b2 q := by
  unfold mlpRowCat mlpRow
  simp only [sum_halves]

end Cert.MeshGrid

end
-- ==== Proof.EdgeBody.lean ====
/-
  The two kernel bodies, one output entry at a time.

  Each body loads a block of rows of the two feature arrays and the five weight and bias arrays whole, and stores one
  block of rows. Row `p`, column `q` of what it stores depends on row `p` of the two feature blocks only: it is the
  two-layer perceptron of `Spec.lean` on those two rows (the changes of float format are the identity on the extended
  reals, each matrix product into a zero accumulator is the plain sum of products over the contracted axis, the
  rectifier is the maximum with zero); the second body adds the first feature block's entry to it.
-/
import proofs.«429466_j58171037057097_1_alg».proof.Proof.Gen.KernelIdeal.Skeleton
import proofs.«429466_j58171037057097_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.MeshGrid.Body

open Cert.KernelIdeal Cert.KernelIdeal.Gen Idealize.ShloMosaic Idealize.ShloMosaic.ValueIdx Cert.MeshGrid

/-- Axis 0 of the left operand's index is the output row. -/
theorem lhs_edge_0 (i : S4000x256.Idx) (q : dot_S4000x256_S256x256_S4000x256_1_0_0_1_n_n.contr.Idx) :
    (dot_S4000x256_S256x256_S4000x256_1_0_0_1_n_n.lhsIdx i q 0).val = (i 0).val := by
  unfold DotDims.lhsIdx
  rw [dif_neg (show ¬(0 : Fin S4000x256.rank) ∈ dot_S4000x256_S256x256_S4000x256_1_0_0_1_n_n.lhsBatch by decide), dif_pos (show (0 : Fin S4000x256.rank) ∈ dot_S4000x256_S256x256_S4000x256_1_0_0_1_n_n.lhsNonContracting by decide)]
  rfl
/-- Axis 1 of the left operand's index is the contraction coordinate. -/
theorem lhs_edge_1 (i : S4000x256.Idx) (q : dot_S4000x256_S256x256_S4000x256_1_0_0_1_n_n.contr.Idx) :
    (dot_S4000x256_S256x256_S4000x256_1_0_0_1_n_n.lhsIdx i q 1).val = (q ⟨0, by decide⟩).val :=
  dot_S4000x256_S256x256_S4000x256_1_0_0_1_n_n.lhsIdx_val_of_single rfl i q
/-- Axis 0 of the right operand's index is the contraction coordinate. -/
theorem rhs_edge_0 (i : S4000x256.Idx) (q : dot_S4000x256_S256x256_S4000x256_1_0_0_1_n_n.contr.Idx) :
    (dot_S4000x256_S256x256_S4000x256_1_0_0_1_n_n.rhsIdx i q 0).val = (q ⟨0, by decide⟩).val :=
  dot_S4000x256_S256x256_S4000x256_1_0_0_1_n_n.rhsIdx_val_of_single rfl i q
/-- Axis 1 of the right operand's index is the output column. -/
theorem rhs_edge_1 (i : S4000x256.Idx) (q : dot_S4000x256_S256x256_S4000x256_1_0_0_1_n_n.contr.Idx) :
    (dot_S4000x256_S256x256_S4000x256_1_0_0_1_n_n.rhsIdx i q 1).val = (i 1).val := by
  unfold DotDims.rhsIdx
  rw [dif_neg (show ¬(1 : Fin S256x256.rank) ∈ dot_S4000x256_S256x256_S4000x256_1_0_0_1_n_n.rhsBatch by decide), dif_pos (show (1 : Fin S256x256.rank) ∈ dot_S4000x256_S256x256_S4000x256_1_0_0_1_n_n.rhsNonContracting by decide)]
  rfl

/-- The matrix product into a zero accumulator, read at `(p, q)`: the sum over the contracted axis of the products. -/
theorem mm4000 (a : FVec Ideal S4000x256 .bf16) (b : FVec Ideal S256x256 .bf16) (p : Fin 4000) (q : Fin 256) :
    matmul (F := Ideal) dot_S4000x256_S256x256_S4000x256_1_0_0_1_n_n none a b (constant (F := Ideal) S4000x256 .f32 0x00000000#32) (ix2 p q)
      = ∑ k : Fin 256, a (ix2 p k) * b (ix2 k q) := by
  show FloatOps.matmul dot_S4000x256_S256x256_S4000x256_1_0_0_1_n_n none a b (constant (F := Ideal) S4000x256 .f32 0x00000000#32) (ix2 p q) = _
  rw [Ideal.matmul_constant_zero_apply, ← Equiv.sum_comp (ValueIdx.contrEquiv1 dot_S4000x256_S256x256_S4000x256_1_0_0_1_n_n 256 rfl rfl).symm]
  refine Finset.sum_congr rfl fun k _ => ?_
  have hk := ValueIdx.contrEquiv1_symm_val dot_S4000x256_S256x256_S4000x256_1_0_0_1_n_n 256 rfl rfl k
  have el : dot_S4000x256_S256x256_S4000x256_1_0_0_1_n_n.lhsIdx (ix2 p q) ((ValueIdx.contrEquiv1 dot_S4000x256_S256x256_S4000x256_1_0_0_1_n_n 256 rfl rfl).symm k) = ix2 p k := funext fun a => Fin.ext (by
    match a with
    | ⟨0, _⟩ => exact lhs_edge_0 _ _
    | ⟨1, _⟩ => exact (lhs_edge_1 _ _).trans hk)
  have er : dot_S4000x256_S256x256_S4000x256_1_0_0_1_n_n.rhsIdx (ix2 p q) ((ValueIdx.contrEquiv1 dot_S4000x256_S256x256_S4000x256_1_0_0_1_n_n 256 rfl rfl).symm k) = ix2 k q := funext fun a => Fin.ext (by
    match a with
    | ⟨0, _⟩ => exact (rhs_edge_0 _ _).trans hk
    | ⟨1, _⟩ => exact rhs_edge_1 _ _)
  rw [el, er]

/-- Axis 0 of the left operand's index is the output row. -/
theorem lhs_grid_0 (i : S5000x256.Idx) (q : dot_S5000x256_S256x256_S5000x256_1_0_0_1_n_n.contr.Idx) :
    (dot_S5000x256_S256x256_S5000x256_1_0_0_1_n_n.lhsIdx i q 0).val = (i 0).val := by
  unfold DotDims.lhsIdx
  rw [dif_neg (show ¬(0 : Fin S5000x256.rank) ∈ dot_S5000x256_S256x256_S5000x256_1_0_0_1_n_n.lhsBatch by decide), dif_pos (show (0 : Fin S5000x256.rank) ∈ dot_S5000x256_S256x256_S5000x256_1_0_0_1_n_n.lhsNonContracting by decide)]
  rfl
/-- Axis 1 of the left operand's index is the contraction coordinate. -/
theorem lhs_grid_1 (i : S5000x256.Idx) (q : dot_S5000x256_S256x256_S5000x256_1_0_0_1_n_n.contr.Idx) :
    (dot_S5000x256_S256x256_S5000x256_1_0_0_1_n_n.lhsIdx i q 1).val = (q ⟨0, by decide⟩).val :=
  dot_S5000x256_S256x256_S5000x256_1_0_0_1_n_n.lhsIdx_val_of_single rfl i q
/-- Axis 0 of the right operand's index is the contraction coordinate. -/
theorem rhs_grid_0 (i : S5000x256.Idx) (q : dot_S5000x256_S256x256_S5000x256_1_0_0_1_n_n.contr.Idx) :
    (dot_S5000x256_S256x256_S5000x256_1_0_0_1_n_n.rhsIdx i q 0).val = (q ⟨0, by decide⟩).val :=
  dot_S5000x256_S256x256_S5000x256_1_0_0_1_n_n.rhsIdx_val_of_single rfl i q
/-- Axis 1 of the right operand's index is the output column. -/
theorem rhs_grid_1 (i : S5000x256.Idx) (q : dot_S5000x256_S256x256_S5000x256_1_0_0_1_n_n.contr.Idx) :
    (dot_S5000x256_S256x256_S5000x256_1_0_0_1_n_n.rhsIdx i q 1).val = (i 1).val := by
  unfold DotDims.rhsIdx
  rw [dif_neg (show ¬(1 : Fin S256x256.rank) ∈ dot_S5000x256_S256x256_S5000x256_1_0_0_1_n_n.rhsBatch by decide), dif_pos (show (1 : Fin S256x256.rank) ∈ dot_S5000x256_S256x256_S5000x256_1_0_0_1_n_n.rhsNonContracting by decide)]
  rfl

/-- The matrix product into a zero accumulator, read at `(p, q)`: the sum over the contracted axis of the products. -/
theorem mm5000 (a : FVec Ideal S5000x256 .bf16) (b : FVec Ideal S256x256 .bf16) (p : Fin 5000) (q : Fin 256) :
    matmul (F := Ideal) dot_S5000x256_S256x256_S5000x256_1_0_0_1_n_n none a b (constant (F := Ideal) S5000x256 .f32 0x00000000#32) (ix2 p q)
      = ∑ k : Fin 256, a (ix2 p k) * b (ix2 k q) := by
  show FloatOps.matmul dot_S5000x256_S256x256_S5000x256_1_0_0_1_n_n none a b (constant (F := Ideal) S5000x256 .f32 0x00000000#32) (ix2 p q) = _
  rw [Ideal.matmul_constant_zero_apply, ← Equiv.sum_comp (ValueIdx.contrEquiv1 dot_S5000x256_S256x256_S5000x256_1_0_0_1_n_n 256 rfl rfl).symm]
  refine Finset.sum_congr rfl fun k _ => ?_
  have hk := ValueIdx.contrEquiv1_symm_val dot_S5000x256_S256x256_S5000x256_1_0_0_1_n_n 256 rfl rfl k
  have el : dot_S5000x256_S256x256_S5000x256_1_0_0_1_n_n.lhsIdx (ix2 p q) ((ValueIdx.contrEquiv1 dot_S5000x256_S256x256_S5000x256_1_0_0_1_n_n 256 rfl rfl).symm k) = ix2 p k := funext fun a => Fin.ext (by
    match a with
    | ⟨0, _⟩ => exact lhs_grid_0 _ _
    | ⟨1, _⟩ => exact (lhs_grid_1 _ _).trans hk)
  have er : dot_S5000x256_S256x256_S5000x256_1_0_0_1_n_n.rhsIdx (ix2 p q) ((ValueIdx.contrEquiv1 dot_S5000x256_S256x256_S5000x256_1_0_0_1_n_n 256 rfl rfl).symm k) = ix2 k q := funext fun a => Fin.ext (by
    match a with
    | ⟨0, _⟩ => exact (rhs_grid_0 _ _).trans hk
    | ⟨1, _⟩ => exact rhs_grid_1 _ _)
  rw [el, er]

/-- Entry `(p, q)` of the edge body's stored block: the perceptron on row `p` of the two feature blocks. -/
theorem k0_pay1_apply (x0 x1 : Vec Ideal S4000x256 .f32) (x2 x3 : Vec Ideal S256x256 .f32) (x4 : Vec Ideal S1x256 .f32)
    (x5 : Vec Ideal S256x256 .f32) (x6 : Vec Ideal S1x256 .f32) (p : Fin 4000) (q : Fin 256) :
    k0_pay1 (F := Ideal) x0 x1 x2 x3 x4 x5 x6 (ix2 p q)
      = mlpRow (fun k => x0 (ix2 p k)) (fun k => x1 (ix2 p k)) (fun k h => x2 (ix2 k h)) (fun k h => x3 (ix2 k h))
          (fun h => x4 (ix2 (0 : Fin 1) h)) (fun h q' => x5 (ix2 h q')) (fun q' => x6 (ix2 (0 : Fin 1) q')) q := by
  unfold k0_pay1 mlpRow
  have h0 : (FloatOps.ofBits (F := Ideal) .f32 0x00000000#32) = 0 := Ideal.ofBits_zero_f32
  simp only [shapeCast_self, addf_apply, mm4000, maximumf_apply, truncf_apply, broadcast_apply, broadcastTo_1b_ab_apply, h0]

/-- Entry `(p, q)` of the grid body's stored block: the first feature block's entry plus the perceptron on row `p`. -/
theorem k1_pay1_apply (x0 x1 : Vec Ideal S5000x256 .f32) (x2 x3 : Vec Ideal S256x256 .f32) (x4 : Vec Ideal S1x256 .f32)
    (x5 : Vec Ideal S256x256 .f32) (x6 : Vec Ideal S1x256 .f32) (p : Fin 5000) (q : Fin 256) :
    k1_pay1 (F := Ideal) x0 x1 x2 x3 x4 x5 x6 (ix2 p q)
      = x0 (ix2 p q) + mlpRow (fun k => x0 (ix2 p k)) (fun k => x1 (ix2 p k)) (fun k h => x2 (ix2 k h)) (fun k h => x3 (ix2 k h))
          (fun h => x4 (ix2 (0 : Fin 1) h)) (fun h q' => x5 (ix2 h q')) (fun q' => x6 (ix2 (0 : Fin 1) q')) q := by
  unfold k1_pay1 mlpRow
  have h0 : (FloatOps.ofBits (F := Ideal) .f32 0x00000000#32) = 0 := Ideal.ofBits_zero_f32
  simp only [shapeCast_self, addf_apply, mm5000, maximumf_apply, truncf_apply, broadcast_apply, broadcastTo_1b_ab_apply, h0]

end Cert.MeshGrid.Body

end
-- ==== Proof.RegionArr.lean ====
/-
  From blocks to arrays: what each of the two kernel regions leaves in its output array.

  A region's output window is cut into blocks of whole rows (4000 rows a block over 75 grid points in the first
  region, 5000 rows over 20 points in the second); grid point `t` reads rows `[t·B, (t+1)·B)` of the two feature arrays
  and the weight and bias arrays whole, and writes rows `[t·B, (t+1)·B)` of the output. Every row of the output lies in
  exactly the block of point `row / B`, so after the region the output array is, entry by entry, the body's row
  function of the same row of the feature arrays as the region found them.
-/
import proofs.«429466_j58171037057097_1_alg».proof.Proof.Gen.KernelIdeal.Frame
import proofs.«429466_j58171037057097_1_alg».proof.Proof.EdgeBody
import Idealize.ShloMosaic.Lib.Pipeline.Value

set_option maxRecDepth 16384

noncomputable section

open scoped BigOperators

namespace Cert.MeshGrid.Arr

open Cert.KernelIdeal Cert.KernelIdeal.Gen Idealize.ShloMosaic Idealize.ShloMosaic.TcCoe Idealize.SL.Sem
open Idealize.ShloMosaic.ValueIdx Cert.MeshGrid
open Idealize.ShloMosaic.Pipeline (Dat)

variable (V : (c : Dev nD) → (b : Ref sig .tc) → Buf (Elt Ideal) ((c : Thread nD τ).loc b))

/-- The edge region's seven input arrays and its output array, at their literal types. -/
abbrev eA0 (c : Dev nD) : Vec Ideal S300000x256 .f32 := V c main_v0
abbrev eA1 (c : Dev nD) : Vec Ideal S300000x256 .f32 := V c main_v1
abbrev eA2 (c : Dev nD) : Vec Ideal S256x256 .f32 := V c main_v2
abbrev eA3 (c : Dev nD) : Vec Ideal S256x256 .f32 := V c main_v3
abbrev eA4 (c : Dev nD) : Vec Ideal S1x256 .f32 := V c main_v4
abbrev eA5 (c : Dev nD) : Vec Ideal S256x256 .f32 := V c main_arg6
abbrev eA6 (c : Dev nD) : Vec Ideal S1x256 .f32 := V c main_v5
abbrev eOut (c : Dev nD) : Vec Ideal S300000x256 .f32 := (dat0 V c).arrAt 7 cfg0.N

/-- The two spellings of the zero offsets agree. -/
theorem hz : (![0, 0] : Fin 2 → Nat) = fun _ => 0 := funext fun a => by fin_cases a <;> rfl

/-! ## The edge region: 75 points, blocks of 4000 whole rows -/

/-- The printed index maps of the edge region, decided over its 75 grid points: the two feature windows and the output
    window sit at block row `t`, block column 0; the weight and bias windows sit at block (0, 0) throughout. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Entry `(p, k)` of point `t`'s block of the first feature array is entry `(t·4000 + p, k)` of the array. -/
theorem blk0_0 (c : Dev nD) (t : Fin cfg0.N) (p : Fin 4000) (k : Fin 256) (r : Fin 300000) (hr : r.val = t.val * 4000 + p.val) :
    iblk0 V c 0 t (ix2 p k) = eA0 V c (ix2 r k) := by
  show V c main_v0 (((cfg0.win 0).blk t).view.emb (ix2 p k)) = V c main_v0 (ix2 r k)
  congr 1
  funext a; apply Fin.ext
  obtain ⟨e00, e01, -⟩ := idx0 t
  match a with
  | ⟨0, _⟩ => show win0_0.index t (0 : Fin 2) * 4000 + 1 * p.val = r.val; omega
  | ⟨1, _⟩ => show win0_0.index t (1 : Fin 2) * 256 + 1 * k.val = k.val; omega

/-- The same for the second feature array. -/
theorem blk0_1 (c : Dev nD) (t : Fin cfg0.N) (p : Fin 4000) (k : Fin 256) (r : Fin 300000) (hr : r.val = t.val * 4000 + p.val) :
    iblk0 V c 1 t (ix2 p k) = eA1 V c (ix2 r k) := by
  show V c main_v1 (((cfg0.win 1).blk t).view.emb (ix2 p k)) = V c main_v1 (ix2 r k)
  congr 1
  funext a; apply Fin.ext
  obtain ⟨-, -, e10, e11, -⟩ := idx0 t
  match a with
  | ⟨0, _⟩ => show win0_1.index t (0 : Fin 2) * 4000 + 1 * p.val = r.val; omega
  | ⟨1, _⟩ => show win0_1.index t (1 : Fin 2) * 256 + 1 * k.val = k.val; omega

/-- The weight and bias windows are their whole arrays at every point. -/
theorem blk0_2 (c : Dev nD) (t : Fin cfg0.N) (k h : Fin 256) : iblk0 V c 2 t (ix2 k h) = eA2 V c (ix2 k h) := by
  show V c main_v2 (((cfg0.win 2).blk t).view.emb (ix2 k h)) = V c main_v2 (ix2 k h)
  congr 1
  funext a; apply Fin.ext
  obtain ⟨-, -, -, -, e20, e21, -⟩ := idx0 t
  match a with
  | ⟨0, _⟩ => show win0_2.index t (0 : Fin 2) * 256 + 1 * k.val = k.val; omega
  | ⟨1, _⟩ => show win0_2.index t (1 : Fin 2) * 256 + 1 * h.val = h.val; omega

theorem blk0_3 (c : Dev nD) (t : Fin cfg0.N) (k h : Fin 256) : iblk0 V c 3 t (ix2 k h) = eA3 V c (ix2 k h) := by
  show V c main_v3 (((cfg0.win 3).blk t).view.emb (ix2 k h)) = V c main_v3 (ix2 k h)
  congr 1
  funext a; apply Fin.ext
  obtain ⟨-, -, -, -, -, -, e30, e31, -⟩ := idx0 t
  match a with
  | ⟨0, _⟩ => show win0_3.index t (0 : Fin 2) * 256 + 1 * k.val = k.val; omega
  | ⟨1, _⟩ => show win0_3.index t (1 : Fin 2) * 256 + 1 * h.val = h.val; omega

theorem blk0_4 (c : Dev nD) (t : Fin cfg0.N) (z : Fin 1) (h : Fin 256) : iblk0 V c 4 t (ix2 z h) = eA4 V c (ix2 z h) := by
  show V c main_v4 (((cfg0.win 4).blk t).view.emb (ix2 z h)) = V c main_v4 (ix2 z h)
  congr 1
  funext a; apply Fin.ext
  obtain ⟨-, -, -, -, -, -, -, -, e40, e41, -⟩ := idx0 t
  match a with
  | ⟨0, _⟩ => show win0_4.index t (0 : Fin 2) * 1 + 1 * z.val = z.val; omega
  | ⟨1, _⟩ => show win0_4.index t (1 : Fin 2) * 256 + 1 * h.val = h.val; omega

theorem blk0_5 (c : Dev nD) (t : Fin cfg0.N) (k h : Fin 256) : iblk0 V c 5 t (ix2 k h) = eA5 V c (ix2 k h) := by
  show V c main_arg6 (((cfg0.win 5).blk t).view.emb (ix2 k h)) = V c main_arg6 (ix2 k h)
  congr 1
  funext a; apply Fin.ext
  obtain ⟨-, -, -, -, -, -, -, -, -, -, e50, e51, -⟩ := idx0 t
  match a with
  | ⟨0, _⟩ => show win0_5.index t (0 : Fin 2) * 256 + 1 * k.val = k.val; omega
  | ⟨1, _⟩ => show win0_5.index t (1 : Fin 2) * 256 + 1 * h.val = h.val; omega

theorem blk0_6 (c : Dev nD) (t : Fin cfg0.N) (z : Fin 1) (h : Fin 256) : iblk0 V c 6 t (ix2 z h) = eA6 V c (ix2 z h) := by
  show V c main_v5 (((cfg0.win 6).blk t).view.emb (ix2 z h)) = V c main_v5 (ix2 z h)
  congr 1
  funext a; apply Fin.ext
  obtain ⟨-, -, -, -, -, -, -, -, -, -, -, -, e60, e61, -⟩ := idx0 t
  match a with
  | ⟨0, _⟩ => show win0_6.index t (0 : Fin 2) * 1 + 1 * z.val = z.val; omega
  | ⟨1, _⟩ => show win0_6.index t (1 : Fin 2) * 256 + 1 * h.val = h.val; omega

/-- The edge region's output array as ONE function of its input arrays: entry `(r, q)` is the perceptron on row `r`. -/
def G0 (c : Dev nD) : Vec Ideal S300000x256 .f32 := fun i =>
  mlpRow (fun k => eA0 V c (ix2 (i 0 : Fin 300000) k)) (fun k => eA1 V c (ix2 (i 0 : Fin 300000) k)) (fun k h => eA2 V c (ix2 k h)) (fun k h => eA3 V c (ix2 k h))
    (fun h => eA4 V c (ix2 (0 : Fin 1) h)) (fun h q' => eA5 V c (ix2 h q')) (fun q' => eA6 V c (ix2 (0 : Fin 1) q')) (i 1 : Fin 256)

/-- The body's payload on point `t`'s blocks, at `(p, q)`, is `G0` at row `t·4000 + p`. -/
theorem point0 (c : Dev nD) (t : Fin cfg0.N) (p : Fin 4000) (q : Fin 256) (r : Fin 300000) (hr : r.val = t.val * 4000 + p.val) :
    k0_pay1 (F := Ideal) (iblk0 V c 0 t) (iblk0 V c 1 t) (iblk0 V c 2 t) (iblk0 V c 3 t) (iblk0 V c 4 t) (iblk0 V c 5 t) (iblk0 V c 6 t) (ix2 p q)
      = G0 V c (ix2 r q) := by
  refine (Body.k0_pay1_apply (iblk0 V c 0 t) (iblk0 V c 1 t) (iblk0 V c 2 t) (iblk0 V c 3 t) (iblk0 V c 4 t) (iblk0 V c 5 t) (iblk0 V c 6 t) p q).trans ?_
  show _ = mlpRow (fun k => eA0 V c (ix2 r k)) (fun k => eA1 V c (ix2 r k)) (fun k h => eA2 V c (ix2 k h)) (fun k h => eA3 V c (ix2 k h))
    (fun h => eA4 V c (ix2 (0 : Fin 1) h)) (fun h q' => eA5 V c (ix2 h q')) (fun q' => eA6 V c (ix2 (0 : Fin 1) q')) q
  have f0 : (fun k => iblk0 V c 0 t (ix2 p k)) = fun k => eA0 V c (ix2 r k) := funext fun k => blk0_0 V c t p k r hr
  have f1 : (fun k => iblk0 V c 1 t (ix2 p k)) = fun k => eA1 V c (ix2 r k) := funext fun k => blk0_1 V c t p k r hr
  have f2 : (fun k h => iblk0 V c 2 t (ix2 k h)) = fun k h => eA2 V c (ix2 k h) := funext fun k => funext fun h => blk0_2 V c t k h
  have f3 : (fun k h => iblk0 V c 3 t (ix2 k h)) = fun k h => eA3 V c (ix2 k h) := funext fun k => funext fun h => blk0_3 V c t k h
  have f4 : (fun h => iblk0 V c 4 t (ix2 (0 : Fin 1) h)) = fun h => eA4 V c (ix2 (0 : Fin 1) h) := funext fun h => blk0_4 V c t 0 h
  have f5 : (fun h q' => iblk0 V c 5 t (ix2 h q')) = fun h q' => eA5 V c (ix2 h q') := funext fun k => funext fun h => blk0_5 V c t k h
  have f6 : (fun q' => iblk0 V c 6 t (ix2 (0 : Fin 1) q')) = fun q' => eA6 V c (ix2 (0 : Fin 1) q') := funext fun h => blk0_6 V c t 0 h
  rw [f0, f1, f2, f3, f4, f5, f6]

/-- WHAT POINT `t` WRITES BACK is block `t` of `G0`. -/
theorem flushed0_eq (c : Dev nD) (t : Fin cfg0.N) :
    (dat0 V c).flushed 7 t = ((cfg0.win 7).blk t).view.read (Elt Ideal) (G0 V c) := by
  show (cfg0.win 7).cut (grid0.coords t) ((dat0 V c).after 7 t) = _
  rw [after0_7]
  unfold out0_7
  rw [View.canon_unit_zero hz]
  simp only [View.ld_unit_zero (S := S4000x256) hz, View.ld_unit_zero (S := S256x256) hz, View.ld_unit_zero (S := S1x256) hz]
  funext j
  obtain ⟨p, q, rfl⟩ : ∃ (p : Fin 4000) (q : Fin 256), j = ix2 p q := ⟨j 0, j 1, eq_ix2 j⟩
  have ht : t.val < 75 := lt_of_lt_of_eq t.isLt N_0
  obtain ⟨-, -, -, -, -, -, -, -, -, -, -, -, -, -, e70, e71⟩ := idx0 t
  have he : ((cfg0.win 7).blk t).view.emb (ix2 p q) = ix2 (⟨t.val * 4000 + p.val, by omega⟩ : Fin 300000) q := by
    funext a; apply Fin.ext
    match a with
    | ⟨0, _⟩ => show win0_7.index t (0 : Fin 2) * 4000 + 1 * p.val = t.val * 4000 + p.val; omega
    | ⟨1, _⟩ => show win0_7.index t (1 : Fin 2) * 256 + 1 * q.val = q.val; omega
  show k0_pay1 (F := Ideal) (iblk0 V c 0 t) (iblk0 V c 1 t) (iblk0 V c 2 t) (iblk0 V c 3 t) (iblk0 V c 4 t) (iblk0 V c 5 t) (iblk0 V c 6 t) (ix2 p q)
    = G0 V c (((cfg0.win 7).blk t).view.emb (ix2 p q))
  rw [he]
  exact point0 V c t p q _ rfl

/-- An index of the output array is in point `t`'s block iff each coordinate is in the block's range on its axis. -/
theorem mem_blk0 (t : Fin cfg0.N) (i : S300000x256.Idx) :
    i ∈ ((cfg0.win 7).blk t).view.set ↔ ∀ a : Fin 2, win0_7.index t a * S4000x256.size a ≤ (i a).val ∧ (i a).val < win0_7.index t a * S4000x256.size a + S4000x256.size a := by
  show i ∈ ((View.whole main_v6).slice (win0_7.rect t)).set ↔ _
  rw [View.set_slice_whole, Rect.mem_set_unit]
  exact Iff.rfl

/-- Every index of the output array is in some point's block: row `r` is in the block of point `r / 4000`. -/
theorem cover0 (i : S300000x256.Idx) : ∃ t : Fin cfg0.N, (cfg0.win 7).flush t = true ∧ i ∈ ((cfg0.win 7).blk t).view.set := by
  have hi0 : (i 0).val < 300000 := (i 0).isLt
  have hi1 : (i 1).val < 256 := (i 1).isLt
  obtain ⟨t, ht⟩ : ∃ t : Fin cfg0.N, t.val = (i 0).val / 4000 :=
    ⟨⟨(i 0).val / 4000, lt_of_lt_of_eq (by omega : (i 0).val / 4000 < 75) N_0.symm⟩, rfl⟩
  refine ⟨t, flush0_7 t, ?_⟩
  rw [mem_blk0]
  obtain ⟨-, -, -, -, -, -, -, -, -, -, -, -, -, -, e70, e71⟩ := idx0 t
  intro a
  match a with
  | ⟨0, _⟩ => show win0_7.index t (0 : Fin 2) * 4000 ≤ (i 0).val ∧ (i 0).val < win0_7.index t (0 : Fin 2) * 4000 + 4000; omega
  | ⟨1, _⟩ => show win0_7.index t (1 : Fin 2) * 256 ≤ (i 1).val ∧ (i 1).val < win0_7.index t (1 : Fin 2) * 256 + 256; omega

/-- THE OUTPUT ARRAY after the edge region is `G0`. -/
theorem final0 (c : Dev nD) : (dat0 V c).arrAt 7 cfg0.N = G0 V c :=
  (dat0 V c).arrAt_eq_of_cover 7 (G0 V c) (fun t _ => flushed0_eq V c t) cover0

/-- After the edge region, entry `(e, q)` of its output array is the perceptron on row `e` of its two feature arrays. -/
theorem edge_arr (c : Dev nD) (e : Fin 300000) (q : Fin 256) :
    eOut V c (ix2 e q)
      = mlpRow (fun k => eA0 V c (ix2 e k)) (fun k => eA1 V c (ix2 e k)) (fun k h => eA2 V c (ix2 k h)) (fun k h => eA3 V c (ix2 k h))
          (fun h => eA4 V c (ix2 (0 : Fin 1) h)) (fun h q' => eA5 V c (ix2 h q')) (fun q' => eA6 V c (ix2 (0 : Fin 1) q')) q :=
  congrFun (final0 V c) (ix2 e q)

/-- The grid region's seven input arrays and its output array, at their literal types. -/
abbrev gA0 (c : Dev nD) : Vec Ideal S100000x256 .f32 := V c main_arg1
abbrev gA1 (c : Dev nD) : Vec Ideal S100000x256 .f32 := V c main_v9
abbrev gA2 (c : Dev nD) : Vec Ideal S256x256 .f32 := V c main_v10
abbrev gA3 (c : Dev nD) : Vec Ideal S256x256 .f32 := V c main_v11
abbrev gA4 (c : Dev nD) : Vec Ideal S1x256 .f32 := V c main_v12
abbrev gA5 (c : Dev nD) : Vec Ideal S256x256 .f32 := V c main_arg10
abbrev gA6 (c : Dev nD) : Vec Ideal S1x256 .f32 := V c main_v13
abbrev gOut (c : Dev nD) : Vec Ideal S100000x256 .f32 := (dat1 V c).arrAt 7 cfg1.N

/-! ## The grid region: 20 points, blocks of 5000 whole rows -/

/-- The printed index maps of the grid region, decided over its 20 grid points: the two feature windows and the output
    window sit at block row `t`, block column 0; the weight and bias windows sit at block (0, 0) throughout. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Entry `(p, k)` of point `t`'s block of the first feature array is entry `(t·5000 + p, k)` of the array. -/
theorem blk1_0 (c : Dev nD) (t : Fin cfg1.N) (p : Fin 5000) (k : Fin 256) (r : Fin 100000) (hr : r.val = t.val * 5000 + p.val) :
    iblk1 V c 0 t (ix2 p k) = gA0 V c (ix2 r k) := by
  show V c main_arg1 (((cfg1.win 0).blk t).view.emb (ix2 p k)) = V c main_arg1 (ix2 r k)
  congr 1
  funext a; apply Fin.ext
  obtain ⟨e00, e01, -⟩ := idx1 t
  match a with
  | ⟨0, _⟩ => show win1_0.index t (0 : Fin 2) * 5000 + 1 * p.val = r.val; omega
  | ⟨1, _⟩ => show win1_0.index t (1 : Fin 2) * 256 + 1 * k.val = k.val; omega

/-- The same for the second feature array. -/
theorem blk1_1 (c : Dev nD) (t : Fin cfg1.N) (p : Fin 5000) (k : Fin 256) (r : Fin 100000) (hr : r.val = t.val * 5000 + p.val) :
    iblk1 V c 1 t (ix2 p k) = gA1 V c (ix2 r k) := by
  show V c main_v9 (((cfg1.win 1).blk t).view.emb (ix2 p k)) = V c main_v9 (ix2 r k)
  congr 1
  funext a; apply Fin.ext
  obtain ⟨-, -, e10, e11, -⟩ := idx1 t
  match a with
  | ⟨0, _⟩ => show win1_1.index t (0 : Fin 2) * 5000 + 1 * p.val = r.val; omega
  | ⟨1, _⟩ => show win1_1.index t (1 : Fin 2) * 256 + 1 * k.val = k.val; omega

/-- The weight and bias windows are their whole arrays at every point. -/
theorem blk1_2 (c : Dev nD) (t : Fin cfg1.N) (k h : Fin 256) : iblk1 V c 2 t (ix2 k h) = gA2 V c (ix2 k h) := by
  show V c main_v10 (((cfg1.win 2).blk t).view.emb (ix2 k h)) = V c main_v10 (ix2 k h)
  congr 1
  funext a; apply Fin.ext
  obtain ⟨-, -, -, -, e20, e21, -⟩ := idx1 t
  match a with
  | ⟨0, _⟩ => show win1_2.index t (0 : Fin 2) * 256 + 1 * k.val = k.val; omega
  | ⟨1, _⟩ => show win1_2.index t (1 : Fin 2) * 256 + 1 * h.val = h.val; omega

theorem blk1_3 (c : Dev nD) (t : Fin cfg1.N) (k h : Fin 256) : iblk1 V c 3 t (ix2 k h) = gA3 V c (ix2 k h) := by
  show V c main_v11 (((cfg1.win 3).blk t).view.emb (ix2 k h)) = V c main_v11 (ix2 k h)
  congr 1
  funext a; apply Fin.ext
  obtain ⟨-, -, -, -, -, -, e30, e31, -⟩ := idx1 t
  match a with
  | ⟨0, _⟩ => show win1_3.index t (0 : Fin 2) * 256 + 1 * k.val = k.val; omega
  | ⟨1, _⟩ => show win1_3.index t (1 : Fin 2) * 256 + 1 * h.val = h.val; omega

theorem blk1_4 (c : Dev nD) (t : Fin cfg1.N) (z : Fin 1) (h : Fin 256) : iblk1 V c 4 t (ix2 z h) = gA4 V c (ix2 z h) := by
  show V c main_v12 (((cfg1.win 4).blk t).view.emb (ix2 z h)) = V c main_v12 (ix2 z h)
  congr 1
  funext a; apply Fin.ext
  obtain ⟨-, -, -, -, -, -, -, -, e40, e41, -⟩ := idx1 t
  match a with
  | ⟨0, _⟩ => show win1_4.index t (0 : Fin 2) * 1 + 1 * z.val = z.val; omega
  | ⟨1, _⟩ => show win1_4.index t (1 : Fin 2) * 256 + 1 * h.val = h.val; omega

theorem blk1_5 (c : Dev nD) (t : Fin cfg1.N) (k h : Fin 256) : iblk1 V c 5 t (ix2 k h) = gA5 V c (ix2 k h) := by
  show V c main_arg10 (((cfg1.win 5).blk t).view.emb (ix2 k h)) = V c main_arg10 (ix2 k h)
  congr 1
  funext a; apply Fin.ext
  obtain ⟨-, -, -, -, -, -, -, -, -, -, e50, e51, -⟩ := idx1 t
  match a with
  | ⟨0, _⟩ => show win1_5.index t (0 : Fin 2) * 256 + 1 * k.val = k.val; omega
  | ⟨1, _⟩ => show win1_5.index t (1 : Fin 2) * 256 + 1 * h.val = h.val; omega

theorem blk1_6 (c : Dev nD) (t : Fin cfg1.N) (z : Fin 1) (h : Fin 256) : iblk1 V c 6 t (ix2 z h) = gA6 V c (ix2 z h) := by
  show V c main_v13 (((cfg1.win 6).blk t).view.emb (ix2 z h)) = V c main_v13 (ix2 z h)
  congr 1
  funext a; apply Fin.ext
  obtain ⟨-, -, -, -, -, -, -, -, -, -, -, -, e60, e61, -⟩ := idx1 t
  match a with
  | ⟨0, _⟩ => show win1_6.index t (0 : Fin 2) * 1 + 1 * z.val = z.val; omega
  | ⟨1, _⟩ => show win1_6.index t (1 : Fin 2) * 256 + 1 * h.val = h.val; omega

/-- The grid region's output array as ONE function of its input arrays: entry `(r, q)` is the first feature array's
    entry plus the perceptron on row `r`. -/
def G1 (c : Dev nD) : Vec Ideal S100000x256 .f32 := fun i =>
  gA0 V c (ix2 (i 0 : Fin 100000) (i 1 : Fin 256))
    + mlpRow (fun k => gA0 V c (ix2 (i 0 : Fin 100000) k)) (fun k => gA1 V c (ix2 (i 0 : Fin 100000) k)) (fun k h => gA2 V c (ix2 k h)) (fun k h => gA3 V c (ix2 k h))
        (fun h => gA4 V c (ix2 (0 : Fin 1) h)) (fun h q' => gA5 V c (ix2 h q')) (fun q' => gA6 V c (ix2 (0 : Fin 1) q')) (i 1 : Fin 256)

/-- The body's payload on point `t`'s blocks, at `(p, q)`, is `G1` at row `t·5000 + p`. -/
theorem point1 (c : Dev nD) (t : Fin cfg1.N) (p : Fin 5000) (q : Fin 256) (r : Fin 100000) (hr : r.val = t.val * 5000 + p.val) :
    k1_pay1 (F := Ideal) (iblk1 V c 0 t) (iblk1 V c 1 t) (iblk1 V c 2 t) (iblk1 V c 3 t) (iblk1 V c 4 t) (iblk1 V c 5 t) (iblk1 V c 6 t) (ix2 p q)
      = G1 V c (ix2 r q) := by
  refine (Body.k1_pay1_apply (iblk1 V c 0 t) (iblk1 V c 1 t) (iblk1 V c 2 t) (iblk1 V c 3 t) (iblk1 V c 4 t) (iblk1 V c 5 t) (iblk1 V c 6 t) p q).trans ?_
  show _ = gA0 V c (ix2 r q) + mlpRow (fun k => gA0 V c (ix2 r k)) (fun k => gA1 V c (ix2 r k)) (fun k h => gA2 V c (ix2 k h)) (fun k h => gA3 V c (ix2 k h))
    (fun h => gA4 V c (ix2 (0 : Fin 1) h)) (fun h q' => gA5 V c (ix2 h q')) (fun q' => gA6 V c (ix2 (0 : Fin 1) q')) q
  have fq : iblk1 V c 0 t (ix2 p q) = gA0 V c (ix2 r q) := blk1_0 V c t p q r hr
  have f0 : (fun k => iblk1 V c 0 t (ix2 p k)) = fun k => gA0 V c (ix2 r k) := funext fun k => blk1_0 V c t p k r hr
  have f1 : (fun k => iblk1 V c 1 t (ix2 p k)) = fun k => gA1 V c (ix2 r k) := funext fun k => blk1_1 V c t p k r hr
  have f2 : (fun k h => iblk1 V c 2 t (ix2 k h)) = fun k h => gA2 V c (ix2 k h) := funext fun k => funext fun h => blk1_2 V c t k h
  have f3 : (fun k h => iblk1 V c 3 t (ix2 k h)) = fun k h => gA3 V c (ix2 k h) := funext fun k => funext fun h => blk1_3 V c t k h
  have f4 : (fun h => iblk1 V c 4 t (ix2 (0 : Fin 1) h)) = fun h => gA4 V c (ix2 (0 : Fin 1) h) := funext fun h => blk1_4 V c t 0 h
  have f5 : (fun h q' => iblk1 V c 5 t (ix2 h q')) = fun h q' => gA5 V c (ix2 h q') := funext fun k => funext fun h => blk1_5 V c t k h
  have f6 : (fun q' => iblk1 V c 6 t (ix2 (0 : Fin 1) q')) = fun q' => gA6 V c (ix2 (0 : Fin 1) q') := funext fun h => blk1_6 V c t 0 h
  rw [fq, f0, f1, f2, f3, f4, f5, f6]

/-- WHAT POINT `t` WRITES BACK is block `t` of `G1`. -/
theorem flushed1_eq (c : Dev nD) (t : Fin cfg1.N) :
    (dat1 V c).flushed 7 t = ((cfg1.win 7).blk t).view.read (Elt Ideal) (G1 V c) := by
  show (cfg1.win 7).cut (grid1.coords t) ((dat1 V c).after 7 t) = _
  rw [after1_7]
  unfold out1_7
  rw [View.canon_unit_zero hz]
  simp only [View.ld_unit_zero (S := S5000x256) hz, View.ld_unit_zero (S := S256x256) hz, View.ld_unit_zero (S := S1x256) hz]
  funext j
  obtain ⟨p, q, rfl⟩ : ∃ (p : Fin 5000) (q : Fin 256), j = ix2 p q := ⟨j 0, j 1, eq_ix2 j⟩
  have ht : t.val < 20 := lt_of_lt_of_eq t.isLt N_1
  obtain ⟨-, -, -, -, -, -, -, -, -, -, -, -, -, -, e70, e71⟩ := idx1 t
  have he : ((cfg1.win 7).blk t).view.emb (ix2 p q) = ix2 (⟨t.val * 5000 + p.val, by omega⟩ : Fin 100000) q := by
    funext a; apply Fin.ext
    match a with
    | ⟨0, _⟩ => show win1_7.index t (0 : Fin 2) * 5000 + 1 * p.val = t.val * 5000 + p.val; omega
    | ⟨1, _⟩ => show win1_7.index t (1 : Fin 2) * 256 + 1 * q.val = q.val; omega
  show k1_pay1 (F := Ideal) (iblk1 V c 0 t) (iblk1 V c 1 t) (iblk1 V c 2 t) (iblk1 V c 3 t) (iblk1 V c 4 t) (iblk1 V c 5 t) (iblk1 V c 6 t) (ix2 p q)
    = G1 V c (((cfg1.win 7).blk t).view.emb (ix2 p q))
  rw [he]
  exact point1 V c t p q _ rfl

/-- An index of the output array is in point `t`'s block iff each coordinate is in the block's range on its axis. -/
theorem mem_blk1 (t : Fin cfg1.N) (i : S100000x256.Idx) :
    i ∈ ((cfg1.win 7).blk t).view.set ↔ ∀ a : Fin 2, win1_7.index t a * S5000x256.size a ≤ (i a).val ∧ (i a).val < win1_7.index t a * S5000x256.size a + S5000x256.size a := by
  show i ∈ ((View.whole main_v14).slice (win1_7.rect t)).set ↔ _
  rw [View.set_slice_whole, Rect.mem_set_unit]
  exact Iff.rfl

/-- Every index of the output array is in some point's block: row `r` is in the block of point `r / 5000`. -/
theorem cover1 (i : S100000x256.Idx) : ∃ t : Fin cfg1.N, (cfg1.win 7).flush t = true ∧ i ∈ ((cfg1.win 7).blk t).view.set := by
  have hi0 : (i 0).val < 100000 := (i 0).isLt
  have hi1 : (i 1).val < 256 := (i 1).isLt
  obtain ⟨t, ht⟩ : ∃ t : Fin cfg1.N, t.val = (i 0).val / 5000 :=
    ⟨⟨(i 0).val / 5000, lt_of_lt_of_eq (by omega : (i 0).val / 5000 < 20) N_1.symm⟩, rfl⟩
  refine ⟨t, flush1_7 t, ?_⟩
  rw [mem_blk1]
  obtain ⟨-, -, -, -, -, -, -, -, -, -, -, -, -, -, e70, e71⟩ := idx1 t
  intro a
  match a with
  | ⟨0, _⟩ => show win1_7.index t (0 : Fin 2) * 5000 ≤ (i 0).val ∧ (i 0).val < win1_7.index t (0 : Fin 2) * 5000 + 5000; omega
  | ⟨1, _⟩ => show win1_7.index t (1 : Fin 2) * 256 ≤ (i 1).val ∧ (i 1).val < win1_7.index t (1 : Fin 2) * 256 + 256; omega

/-- THE OUTPUT ARRAY after the grid region is `G1`. -/
theorem final1 (c : Dev nD) : (dat1 V c).arrAt 7 cfg1.N = G1 V c :=
  (dat1 V c).arrAt_eq_of_cover 7 (G1 V c) (fun t _ => flushed1_eq V c t) cover1

/-- After the grid region, entry `(i, q)` of its output array is the first feature array's entry plus the perceptron
    on row `i` of its two feature arrays. -/
theorem grid_arr (c : Dev nD) (i : Fin 100000) (q : Fin 256) :
    gOut V c (ix2 i q)
      = gA0 V c (ix2 i q) + mlpRow (fun k => gA0 V c (ix2 i k)) (fun k => gA1 V c (ix2 i k)) (fun k h => gA2 V c (ix2 k h)) (fun k h => gA3 V c (ix2 k h))
          (fun h => gA4 V c (ix2 (0 : Fin 1) h)) (fun h q' => gA5 V c (ix2 h q')) (fun q' => gA6 V c (ix2 (0 : Fin 1) q')) q :=
  congrFun (final1 V c) (ix2 i q)

end Cert.MeshGrid.Arr

end
-- ==== Proof.Take.lean ====
/-
  The kernel's row lookup against the reference's, on indices in range.

  The kernel's program looks rows up with a fill: it moves a negative index word up by the number of rows, reads the
  row (the read clamps the index into the table), and then keeps the row only where the moved index lies in
  `[0, rows − 1]`, putting a filler elsewhere. The reference's program moves the index the same way and reads the row,
  with no fill. Where every index word is already a row number, `0 ≤ s e < rows`, nothing is moved, the range test
  holds at every edge, and the fill keeps every row: the two lookups are the same array. The precondition says exactly
  that of both index arrays.
-/
import proofs.«429466_j58171037057097_1_alg».proof.Defs
import proofs.«429466_j58171037057097_1_alg».proof.Proof.Gen.KernelIdeal
import proofs.«429466_j58171037057097_1_alg».proof.Proof.Gen.Pre_finite_inputs
import Idealize.ShloMosaic.Lib.ValueIdx
import Idealize.ShloMosaic.Lib.ReduceAll
import Idealize.ShloMosaic.Lib.StableHlo.Predicate

noncomputable section

namespace Cert.MeshGrid.Take

open Cert.KernelIdeal Cert.KernelIdeal.Gen Idealize.ShloMosaic Idealize.ShloMosaic.ValueIdx

variable {F : FTy → Type} [FloatOps F]

/-- The index words with the negative ones moved up by `n` (how an index from the end is counted). -/
def wrapIdx (n : BitVec 32) (s : IVec S300000 32) : IVec S300000 32 :=
  select (cmpi .slt s (broadcastInDim S300000 ![] bcast_S_S300000 (constantI S_ 32 0#32)))
    (addi s (broadcastInDim S300000 ![] bcast_S_S300000 (constantI S_ 32 n))) s

/-- The lookup's range test, per edge: the moved index word lies in `[0, hi]`. -/
def inRangeMask (hi : BitVec 32) (w : IVec S300000 32) : IVec S300000 1 :=
  Host.reduce IntOp.andi
    (andi (cmpi .sge (broadcastInDim S300000x1 ![0] bcast_S300000_S300000x1_0 w) (broadcastInDim S300000x1 ![] bcast_S_S300000x1 (constantI S_ 32 0#32)))
      (cmpi .sle (broadcastInDim S300000x1 ![0] bcast_S300000_S300000x1_0 w)
        (broadcastInDim S300000x1 ![0, 1] bcast_S1x1_S300000x1_0_1 (broadcastInDim S1x1 ![1] bcast_S1_S1x1_1 (constantI S1 32 hi)))))
    (constantI S_ 1 1#1) reducesTo_S300000x1_S300000_d1 h_S_

/-! ## Words -/

/-- A left fold by `and` from 1 over bits that are all 1 stays 1. -/
private theorem foldl_andi_ones {ι : Type} (f : ι → BitVec 1) (hf : ∀ i, f i = 1#1) :
    ∀ l : List ι, l.foldl (fun r n => IntOp.andi r (f n)) 1#1 = 1#1
  | [] => rfl
  | a :: l => by
    have h11 : IntOp.andi 1#1 1#1 = 1#1 := by decide
    rw [List.foldl_cons, hf a, h11]
    exact foldl_andi_ones f hf l

/-- A reduce by `and` from 1 of an array of ones is 1 at every result index. -/
private theorem reduce_andi_ones {s t u : Shape} {axes : List (Fin s.rank)} (x : s.Idx → BitVec 1) (hx : ∀ i, x i = 1#1)
    (init : u.Idx → BitVec 1) (h : s.ReducesTo axes t) (hu : 0 < u.numel) (hinit : init (Shape.Idx.first hu) = 1#1)
    (j : t.Idx) : Host.reduce IntOp.andi x init h hu j = 1#1 := by
  rw [Host.reduce_eq_foldl, hinit]
  exact foldl_andi_ones x hx _

/-- A word that is not below zero as a signed word has its top bit clear: its value is below 2³¹. -/
private theorem toNat_lt_of_sge_zero (w : BitVec 32) (h0 : IntOp.cmpi .sge w 0#32 = 1#1) : w.toNat < 2 ^ 31 := by
  have h1 : (0#32).sle w = true := (StableHlo.Predicate.ofBool_eq_one_iff _).1 h0
  simp only [BitVec.sle, decide_eq_true_eq] at h1
  have hz : (0#32).toInt = 0 := by decide
  have hw := BitVec.toInt_eq_toNat_cond w
  have hlt := w.isLt
  by_cases hc : 2 * w.toNat < 2 ^ 32
  · omega
  · rw [if_neg hc] at hw; omega

/-- A word in `[0, n)` as a signed word, `n` below 2³¹, has a value below `n`'s. -/
private theorem toNat_lt_of_range (w n : BitVec 32) (hn : n.toNat < 2 ^ 31) (h0 : IntOp.cmpi .sge w 0#32 = 1#1)
    (h1 : IntOp.cmpi .slt w n = 1#1) : w.toNat < n.toNat :=
  (StableHlo.Predicate.slt_iff_toNat (toNat_lt_of_sge_zero w h0) hn).1 h1

/-! ## The moved index and the range test -/

/-- A word below 2³¹ is not negative, so it is not moved. -/
private theorem wrapIdx_apply (n : BitVec 32) (s : IVec S300000 32) (e : S300000.Idx) (he : (s e).toNat < 2 ^ 31) :
    wrapIdx n s e = s e := by
  show Scalar.select (IntOp.cmpi .slt (s e) 0#32) (IntOp.addi (s e) n) (s e) = s e
  have hc : IntOp.cmpi .slt (s e) 0#32 = 0#1 := eq_zero_of_ne_one fun hh => by
    have := (StableHlo.Predicate.slt_iff_toNat he (by decide)).1 hh
    simp at this
  rw [hc, select_zero]

/-- Index words with values at most `hi`'s, `hi` below 2³¹, pass the range test `[0, hi]` at every edge. -/
private theorem inRangeMask_of_le (n hi : BitVec 32) (hhi : hi.toNat < 2 ^ 31) (s : IVec S300000 32)
    (h : ∀ e : S300000.Idx, (s e).toNat ≤ hi.toNat) : inRangeMask hi (wrapIdx n s) = fun _ => 1#1 := by
  funext j
  refine reduce_andi_ones _ (fun i => ?_) _ _ _ rfl j
  show IntOp.andi (IntOp.cmpi .sge (wrapIdx n s _) 0#32) (IntOp.cmpi .sle (wrapIdx n s _) hi) = 1#1
  generalize (fun a : Fin S300000.rank => _ : S300000.Idx) = e
  have he : (s e).toNat < 2 ^ 31 := lt_of_le_of_lt (h e) hhi
  rw [wrapIdx_apply n s e he, IntOp.andi_eq_one]
  exact ⟨(StableHlo.Predicate.sge_iff_toNat he (by decide)).2 (Nat.zero_le _),
    (StableHlo.Predicate.sle_iff_toNat he hhi).2 (h e)⟩

/-- Index words that are row numbers of a table of 10000 rows pass the range test `[0, 9999]` at every edge. -/
theorem inRangeMask_mesh (s : IVec S300000 32) (h : ∀ e : S300000.Idx, (s e).toNat < 10000) :
    inRangeMask 9999#32 (wrapIdx 10000#32 s) = fun _ => 1#1 :=
  inRangeMask_of_le 10000#32 9999#32 (by decide) s fun e => by
    have := h e
    show (s e).toNat ≤ 9999
    omega

/-- Index words that are row numbers of a table of 100000 rows pass the range test `[0, 99999]` at every edge. -/
theorem inRangeMask_grid (s : IVec S300000 32) (h : ∀ e : S300000.Idx, (s e).toNat < 100000) :
    inRangeMask 99999#32 (wrapIdx 100000#32 s) = fun _ => 1#1 :=
  inRangeMask_of_le 100000#32 99999#32 (by decide) s fun e => by
    have := h e
    show (s e).toNat ≤ 99999
    omega

/-- A selection under a mask that is set everywhere keeps its first operand (here: every looked-up row). -/
theorem select_rows_of_all (mask : IVec S300000 1) (hm : mask = fun _ => 1#1) (a b : FVec F S300000x256 .f32) :
    select (broadcastInDim S300000x256 ![0] bcast_S300000_S300000x256_0 mask) a b = a := by
  subst hm
  funext i
  show Scalar.select 1#1 (a i) (b i) = a i
  exact select_one _ _

/-! ## The precondition, decoded -/

/-- The scalar shape has one index. -/
private instance : Subsingleton Cert.Pre_finite_inputs.S_.Idx := ⟨fun _ _ => funext fun d => d.elim0⟩

/-- The precondition's last two conjuncts at an edge: both index words lie in their tables' ranges as signed words. -/
private theorem pre_words (m : (ℓ : Loc nD τ sig) → Buf (Elt Ideal) ℓ) (h : Cert.Pre_KernelIdeal m) (c : Dev nD) (e : S300000.Idx) :
    (IntOp.cmpi .sge ((m ((c.tc : Thread nD τ).loc main_arg2) : IVec S300000 32) e) 0#32 = 1#1
      ∧ IntOp.cmpi .slt ((m ((c.tc : Thread nD τ).loc main_arg2) : IVec S300000 32) e) 10000#32 = 1#1)
    ∧ (IntOp.cmpi .sge ((m ((c.tc : Thread nD τ).loc main_arg3) : IVec S300000 32) e) 0#32 = 1#1
      ∧ IntOp.cmpi .slt ((m ((c.tc : Thread nD τ).loc main_arg3) : IVec S300000 32) e) 100000#32 = 1#1) := by
  have e0 := congrFun (h c) ValueIdx.ix0
  dsimp only [Cert.Pre_finite_inputs.fn, Cert.Pre_finite_inputs.fn_part1, Cert.Pre_finite_inputs.fn_part2,
    Cert.Pre_finite_inputs.fn_part3] at e0
  have e1 : IntOp.andi (IntOp.andi _ _) _ = 1#1 := e0
  obtain ⟨e2, hdst⟩ := IntOp.andi_eq_one.1 e1
  obtain ⟨-, hsrc⟩ := IntOp.andi_eq_one.1 e2
  have hs := Host.reduce_andi_all _ _ _ _ _ hsrc e
  have hd := Host.reduce_andi_all _ _ _ _ _ hdst e
  exact ⟨IntOp.andi_eq_one.1 hs, IntOp.andi_eq_one.1 hd⟩

/-- Under the precondition every source index word is a row number of the mesh table. -/
theorem pre_src (m : (ℓ : Loc nD τ sig) → Buf (Elt Ideal) ℓ) (h : Cert.Pre_KernelIdeal m) (c : Dev nD) (e : S300000.Idx) :
    ((m ((c.tc : Thread nD τ).loc main_arg2) : IVec S300000 32) e).toNat < 10000 :=
  toNat_lt_of_range _ 10000#32 (by decide) (pre_words m h c e).1.1 (pre_words m h c e).1.2

/-- Under the precondition every destination index word is a row number of the grid table. -/
theorem pre_dst (m : (ℓ : Loc nD τ sig) → Buf (Elt Ideal) ℓ) (h : Cert.Pre_KernelIdeal m) (c : Dev nD) (e : S300000.Idx) :
    ((m ((c.tc : Thread nD τ).loc main_arg3) : IVec S300000 32) e).toNat < 100000 :=
  toNat_lt_of_range _ 100000#32 (by decide) (pre_words m h c e).2.1 (pre_words m h c e).2.2

end Cert.MeshGrid.Take

end
-- ==== Proof.HostStretch.lean ====
/-
  What the host operations between the launch and each kernel region leave in the region's input arrays.

  Before the first region: the two row lookups (each a fill-guarded gather of a feature table at the edges' index
  words), the two halves of the first edge weight matrix as row slices, the two edge biases as rows `[1, 256]`; the
  second edge weight matrix is an argument and is read as launched. Between the regions: the scatter-sum of the first
  region's output array into a zero array at the destination index words, the two halves of the first grid weight
  matrix, the two grid biases as rows; the grid feature table and the second grid weight matrix are arguments, read as
  launched (no host operation and no region writes an argument).
-/
import proofs.«429466_j58171037057097_1_alg».proof.Proof.Gen.KernelIdeal.Frame
import proofs.«429466_j58171037057097_1_alg».proof.Proof.Take
import Idealize.ShloMosaic.Lib.StableHlo.Run

set_option maxRecDepth 16384

noncomputable section

namespace Cert.MeshGrid.Host

open Cert.KernelIdeal Cert.KernelIdeal.Gen Idealize.ShloMosaic Idealize.ShloMosaic.TcCoe Idealize.SL.Sem Idealize.ShloMosaic.StableHlo
open Cert.MeshGrid.Take

variable (m : (ℓ : Loc nD τ sig) → Buf (Elt Ideal) ℓ) (ρ : Dev nD → PrngReg)

/-- The twelve argument arrays as launched, at their literal types. -/
abbrev meshX (c : Dev nD) : FVec Ideal S10000x256 .f32 := m ((c.tc : Thread nD τ).loc main_arg0)
abbrev gridX (c : Dev nD) : FVec Ideal S100000x256 .f32 := m ((c.tc : Thread nD τ).loc main_arg1)
abbrev src (c : Dev nD) : IVec S300000 32 := m ((c.tc : Thread nD τ).loc main_arg2)
abbrev dst (c : Dev nD) : IVec S300000 32 := m ((c.tc : Thread nD τ).loc main_arg3)
abbrev w1e (c : Dev nD) : FVec Ideal S512x256 .f32 := m ((c.tc : Thread nD τ).loc main_arg4)
abbrev b1e (c : Dev nD) : FVec Ideal S256 .f32 := m ((c.tc : Thread nD τ).loc main_arg5)
abbrev w2e (c : Dev nD) : FVec Ideal S256x256 .f32 := m ((c.tc : Thread nD τ).loc main_arg6)
abbrev b2e (c : Dev nD) : FVec Ideal S256 .f32 := m ((c.tc : Thread nD τ).loc main_arg7)
abbrev w1g (c : Dev nD) : FVec Ideal S512x256 .f32 := m ((c.tc : Thread nD τ).loc main_arg8)
abbrev b1g (c : Dev nD) : FVec Ideal S256 .f32 := m ((c.tc : Thread nD τ).loc main_arg9)
abbrev w2g (c : Dev nD) : FVec Ideal S256x256 .f32 := m ((c.tc : Thread nD τ).loc main_arg10)
abbrev b2g (c : Dev nD) : FVec Ideal S256 .f32 := m ((c.tc : Thread nD τ).loc main_arg11)

/-! ## Region 0's input arrays -/

/-- Contents carried to a typed reference's buffer and back are the contents. -/
theorem ofBuf_toBuf {sg : RefSig} {Val : EltTy → Type} {T : BufTy} (x : StableHlo.TRef sg T) (z : T.Contents Val) :
    x.ofBuf (x.toBuf z) = z := by
  obtain ⟨r, rfl, h1, h2⟩ := x
  rfl

set_option maxHeartbeats 4000000 in
/-- The mesh rows looked up at the source index words, fill-guarded: the lookup's operations, composed. -/
theorem V3_v0 (c : Dev nD) : V3 m ρ c main_v0
    = select (broadcastInDim S300000x256 ![0] bcast_S300000_S300000x256_0 (inRangeMask 9999#32 (wrapIdx 10000#32 (src m c))))
        (Host.gather gather_S10000x256_S300000x1_S300000x256_1_0_n_n_0_1_1256 (meshX m c)
          (broadcastInDim S300000x1 ![0] bcast_S300000_S300000x1_0 (wrapIdx 10000#32 (src m c))))
        (broadcastInDim S300000x256 ![] bcast_S_S300000x256 (constant (F := Ideal) S_ .f32 0x7FC00000#32)) := by
  show W3 m ρ c (Proc.devRef .tc main_v0) = _
  dsimp only [W3]
  after_results
  simp only [ofBuf_toBuf]
  unfold inRangeMask wrapIdx
  chain_rfl

set_option maxHeartbeats 4000000 in
/-- The grid rows looked up at the destination index words, fill-guarded: the lookup's operations, composed. -/
theorem V3_v1 (c : Dev nD) : V3 m ρ c main_v1
    = select (broadcastInDim S300000x256 ![0] bcast_S300000_S300000x256_0 (inRangeMask 99999#32 (wrapIdx 100000#32 (dst m c))))
        (Host.gather gather_S100000x256_S300000x1_S300000x256_1_0_n_n_0_1_1256 (gridX m c)
          (broadcastInDim S300000x1 ![0] bcast_S300000_S300000x1_0 (wrapIdx 100000#32 (dst m c))))
        (broadcastInDim S300000x256 ![] bcast_S_S300000x256 (constant (F := Ideal) S_ .f32 0x7FC00000#32)) := by
  show W3 m ρ c (Proc.devRef .tc main_v1) = _
  dsimp only [W3]
  after_results
  simp only [ofBuf_toBuf]
  unfold inRangeMask wrapIdx
  chain_rfl

/-- The upper half of the first edge weight matrix's rows, as a slice. -/
theorem V3_v2 (c : Dev nD) : V3 m ρ c main_v2 = extractStridedSlice S256x256 ![0, 0] (w1e m c) slices_S512x256_S256x256_0_0 := by
  show W3 m ρ c (Proc.devRef .tc main_v2) = _
  dsimp only [W3]
  after_results

/-- The lower half of the first edge weight matrix's rows, as a slice. -/
theorem V3_v3 (c : Dev nD) : V3 m ρ c main_v3 = extractStridedSlice S256x256 ![256, 0] (w1e m c) slices_S512x256_S256x256_256_0 := by
  show W3 m ρ c (Proc.devRef .tc main_v3) = _
  dsimp only [W3]
  after_results

/-- The first edge bias as one row. -/
theorem V3_v4 (c : Dev nD) : V3 m ρ c main_v4 = shapeCast S1x256 (b1e m c) shapeCasts_S256_S1x256 := by
  show W3 m ρ c (Proc.devRef .tc main_v4) = _
  dsimp only [W3]
  after_results
  rfl

/-- The second edge weight matrix, as launched. -/
theorem V3_arg6 (c : Dev nD) : V3 m ρ c main_arg6 = w2e m c := by
  show W3 m ρ c (Proc.devRef .tc main_arg6) = _
  dsimp only [W3]
  after_results

/-- The second edge bias as one row. -/
theorem V3_v5 (c : Dev nD) : V3 m ρ c main_v5 = shapeCast S1x256 (b2e m c) shapeCasts_S256_S1x256 := by
  show W3 m ρ c (Proc.devRef .tc main_v5) = _
  dsimp only [W3]
  after_results
  rfl

/-! ## Region 1's input arrays -/

/-- An argument array is as launched when the first region is left: no host operation before it and no window of the
    first region's writes it. -/
theorem W4_arg (c : Dev nD) (b : Ref sig .tc) (hb : ∀ w, Pipeline.arrRef spec0 w ≠ b)
    (h3 : W3 m ρ c (Proc.devRef .tc b) = m ((c.tc : Thread nD τ).loc b)) :
    W4 m ρ c (Proc.devRef .tc b) = m ((c.tc : Thread nD τ).loc b) :=
  (W4_of_ne m ρ c b hb).trans h3

theorem W3_arg1 (c : Dev nD) : W3 m ρ c (Proc.devRef .tc main_arg1) = m ((c.tc : Thread nD τ).loc main_arg1) := by
  dsimp only [W3]; after_results
theorem W3_arg3 (c : Dev nD) : W3 m ρ c (Proc.devRef .tc main_arg3) = m ((c.tc : Thread nD τ).loc main_arg3) := by
  dsimp only [W3]; after_results
theorem W3_arg8 (c : Dev nD) : W3 m ρ c (Proc.devRef .tc main_arg8) = m ((c.tc : Thread nD τ).loc main_arg8) := by
  dsimp only [W3]; after_results
theorem W3_arg9 (c : Dev nD) : W3 m ρ c (Proc.devRef .tc main_arg9) = m ((c.tc : Thread nD τ).loc main_arg9) := by
  dsimp only [W3]; after_results
theorem W3_arg10 (c : Dev nD) : W3 m ρ c (Proc.devRef .tc main_arg10) = m ((c.tc : Thread nD τ).loc main_arg10) := by
  dsimp only [W3]; after_results
theorem W3_arg11 (c : Dev nD) : W3 m ρ c (Proc.devRef .tc main_arg11) = m ((c.tc : Thread nD τ).loc main_arg11) := by
  dsimp only [W3]; after_results

/-- The grid feature table, as launched. -/
theorem V5_arg1 (c : Dev nD) : V5 m ρ c main_arg1 = gridX m c := by
  show W5 m ρ c (Proc.devRef .tc main_arg1) = _
  dsimp only [W5]
  after_results
  exact W4_arg m ρ c main_arg1 (by decide) (W3_arg1 m ρ c)

/-- The scatter-sum of the first region's output array into a zero array, at the destination index words. -/
theorem V5_v9 (c : Dev nD) : V5 m ρ c main_v9
    = Host.scatterAdd scatter_S100000x256_S300000x1_S300000x256_1_0_0_1
        (broadcastInDim S100000x256 ![] bcast_S_S100000x256 (constant (F := Ideal) S_ .f32 0x00000000#32))
        (broadcastInDim S300000x1 ![0] bcast_S300000_S300000x1_0 (dst m c))
        ((dat0 (V3 m ρ) c).arrAt 7 cfg0.N) := by
  show W5 m ρ c (Proc.devRef .tc main_v9) = _
  dsimp only [W5]
  after_results
  rw [W4_arg m ρ c main_arg3 (by decide) (W3_arg3 m ρ c)]
  rw [show W4 m ρ c (Proc.devRef .tc main_v6) = (dat0 (V3 m ρ) c).arrAt 7 cfg0.N from W4_arr m ρ c 7]

/-- The upper half of the first grid weight matrix's rows, as a slice. -/
theorem V5_v10 (c : Dev nD) : V5 m ρ c main_v10 = extractStridedSlice S256x256 ![0, 0] (w1g m c) slices_S512x256_S256x256_0_0 := by
  show W5 m ρ c (Proc.devRef .tc main_v10) = _
  dsimp only [W5]
  after_results
  rw [W4_arg m ρ c main_arg8 (by decide) (W3_arg8 m ρ c)]

/-- The lower half of the first grid weight matrix's rows, as a slice. -/
theorem V5_v11 (c : Dev nD) : V5 m ρ c main_v11 = extractStridedSlice S256x256 ![256, 0] (w1g m c) slices_S512x256_S256x256_256_0 := by
  show W5 m ρ c (Proc.devRef .tc main_v11) = _
  dsimp only [W5]
  after_results
  rw [W4_arg m ρ c main_arg8 (by decide) (W3_arg8 m ρ c)]

/-- The first grid bias as one row. -/
theorem V5_v12 (c : Dev nD) : V5 m ρ c main_v12 = shapeCast S1x256 (b1g m c) shapeCasts_S256_S1x256 := by
  show W5 m ρ c (Proc.devRef .tc main_v12) = _
  dsimp only [W5]
  after_results
  rw [W4_arg m ρ c main_arg9 (by decide) (W3_arg9 m ρ c)]
  rfl

/-- The second grid weight matrix, as launched. -/
theorem V5_arg10 (c : Dev nD) : V5 m ρ c main_arg10 = w2g m c := by
  show W5 m ρ c (Proc.devRef .tc main_arg10) = _
  dsimp only [W5]
  after_results
  exact W4_arg m ρ c main_arg10 (by decide) (W3_arg10 m ρ c)

/-- The second grid bias as one row. -/
theorem V5_v13 (c : Dev nD) : V5 m ρ c main_v13 = shapeCast S1x256 (b2g m c) shapeCasts_S256_S1x256 := by
  show W5 m ρ c (Proc.devRef .tc main_v13) = _
  dsimp only [W5]
  after_results
  rw [W4_arg m ρ c main_arg11 (by decide) (W3_arg11 m ρ c)]
  rfl

end Cert.MeshGrid.Host

end
-- ==== Proof.Layout.lean ====
/-
  The host's re-layouts of the weights and biases, read at an index: the lower and upper 256 rows of a 512-row
  matrix as row slices, and a vector of 256 entries as the one row of a `[1, 256]` array.
-/
import proofs.«429466_j58171037057097_1_alg».proof.Proof.Gen.KernelIdeal
import proofs.«429466_j58171037057097_1_alg».proof.Proof.Spec
import Idealize.ShloMosaic.Lib.ValueIdx
import Idealize.ShloMosaic.Lib.Pipeline.Value

noncomputable section

namespace Cert.MeshGrid.Layout

open Cert.KernelIdeal Cert.KernelIdeal.Gen Idealize.ShloMosaic Idealize.ShloMosaic.ValueIdx Cert.MeshGrid

/-- Row `k` of the slice that starts at row 0 is row `k` of the matrix. -/
theorem slice_top (w : FVec Ideal S512x256 .f32) (k h : Fin 256) :
    extractStridedSlice S256x256 ![0, 0] w slices_S512x256_S256x256_0_0 (ix2 k h) = w (ix2 (lo k) h) := by
  refine extractStridedSlice_apply _ w _ (ix2 k h) (ix2 (lo k) h) (fun a => ?_)
  match a with
  | ⟨0, _⟩ => show k.val = 0 + k.val; omega
  | ⟨1, _⟩ => show h.val = 0 + h.val; omega

/-- Row `k` of the slice that starts at row 256 is row `256 + k` of the matrix. -/
theorem slice_bot (w : FVec Ideal S512x256 .f32) (k h : Fin 256) :
    extractStridedSlice S256x256 ![256, 0] w slices_S512x256_S256x256_256_0 (ix2 k h) = w (ix2 (hi k) h) := by
  refine extractStridedSlice_apply _ w _ (ix2 k h) (ix2 (hi k) h) (fun a => ?_)
  match a with
  | ⟨0, _⟩ => show 256 + k.val = 256 + k.val; rfl
  | ⟨1, _⟩ => show h.val = 0 + h.val; omega

/-- Entry `(0, h)` of a vector laid out as one row is the vector's entry `h`. -/
theorem row_of_vec (b : FVec Ideal S256 .f32) (h : Fin 256) :
    shapeCast S1x256 b shapeCasts_S256_S1x256 (ix2 (0 : Fin 1) h) = b (ix1 h) := by
  refine (shapeCast_addUnit_apply (![256] : Fin 1 → Nat) b shapeCasts_S256_S1x256 (ix2 (0 : Fin 1) h)).trans ?_
  congr 1
  funext a
  match a with
  | ⟨0, _⟩ => rfl

end Cert.MeshGrid.Layout

end
-- ==== Proof.RefValue.lean ====
/-
  The reference program's two perceptron stages, one output entry at a time.

  The reference concatenates an edge's two looked-up rows into one row of 512 features and multiplies it by the whole
  first weight matrix; entry by entry that is the perceptron of `Spec.lean` on the concatenated row, hence
  (`mlpRowCat_eq`) the perceptron on the two halves against the two halves of the matrix. The same holds of the second
  stage, on a grid node's own row concatenated with the row the scatter-sum gives it, with the node's own entry added.
-/
import proofs.«429466_j58171037057097_1_alg».proof.Proof.Gen.ReferenceIdeal.Run
import proofs.«429466_j58171037057097_1_alg».proof.Proof.Gen.ReferenceIdeal.Read
import proofs.«429466_j58171037057097_1_alg».proof.Proof.Spec
import Idealize.ShloMosaic.Lib.ValueIdx
import Idealize.ShloMosaic.Lib.Pipeline.Value
import Idealize.ShloMosaic.PureOps.Ideal.Laws

noncomputable section

open scoped BigOperators

namespace Cert.MeshGrid.Ref

open Cert.ReferenceIdeal Cert.ReferenceIdeal.Read Idealize.ShloMosaic Idealize.ShloMosaic.ValueIdx Cert.MeshGrid

/-- The edge stage's concatenated row at a position of the lower half is the first looked-up row there. -/
theorem cat_edge_lo (x0 : FVec Ideal S10000x256 .f32) (x1 : FVec Ideal S100000x256 .f32) (x2 x3 : IVec S300000 32)
    (e : Fin 300000) (k : Fin 256) :
    val_main_v14 (F := Ideal) x0 x1 x2 x3 (ix2 e (lo k)) = val_main_v6 (F := Ideal) x0 x2 (ix2 e k) := by
  unfold val_main_v14
  exact concatenate_pair_apply_left (s₁ := S300000x256) (s₂ := S300000x256) _ _ _ _ (ix2 e (lo k)) rfl (ix2 e k)
    (fun b => by match b with | ⟨0, _⟩ => rfl | ⟨1, _⟩ => rfl)

/-- The edge stage's concatenated row at a position of the upper half is the second looked-up row, 256 places back. -/
theorem cat_edge_hi (x0 : FVec Ideal S10000x256 .f32) (x1 : FVec Ideal S100000x256 .f32) (x2 x3 : IVec S300000 32)
    (e : Fin 300000) (k : Fin 256) :
    val_main_v14 (F := Ideal) x0 x1 x2 x3 (ix2 e (hi k)) = val_main_v13 (F := Ideal) x1 x3 (ix2 e k) := by
  unfold val_main_v14
  exact concatenate_pair_apply_right (s₁ := S300000x256) (s₂ := S300000x256) _ _ _ _ (ix2 e (hi k)) rfl rfl (ix2 e k)
    (fun b hb => by match b with | ⟨0, _⟩ => rfl | ⟨1, _⟩ => exact absurd rfl hb)
    (by show k.val + 256 = 256 + k.val; omega)

/-- Entry `(e, q)` of the edge stage is the perceptron on the concatenated row against the whole first matrix. -/
theorem edge_cat (x0 : FVec Ideal S10000x256 .f32) (x1 : FVec Ideal S100000x256 .f32) (x2 x3 : IVec S300000 32)
    (x4 : FVec Ideal S512x256 .f32) (x5 : FVec Ideal S256 .f32) (x6 : FVec Ideal S256x256 .f32) (x7 : FVec Ideal S256 .f32)
    (e : Fin 300000) (q : Fin 256) :
    val_main_v23 (F := Ideal) x0 x1 x2 x3 x4 x5 x6 x7 (ix2 e q)
      = mlpRowCat (fun k => val_main_v14 (F := Ideal) x0 x1 x2 x3 (ix2 e k)) (fun k h => x4 (ix2 k h))
          (fun h => x5 (ix1 h)) (fun h q' => x6 (ix2 h q')) (fun q' => x7 (ix1 q')) q := by
  have e1 : ∀ h : Fin 256, lidx_main_v20 (ix2 e q) h = ix2 e h := fun h => funext fun a => Fin.ext (by
    match a with | ⟨0, _⟩ => rfl | ⟨1, _⟩ => rfl)
  have e2 : ∀ h : Fin 256, ridx_main_v20 (ix2 e q) h = ix2 h q := fun h => funext fun a => Fin.ext (by
    match a with | ⟨0, _⟩ => rfl | ⟨1, _⟩ => rfl)
  have e3 : idx_main_v21 (idx_main_v22 (ix2 e q)) = ix1 q := funext fun a => Fin.ext (by
    match a with | ⟨0, _⟩ => rfl)
  have e4 : ∀ (h : Fin 256) (k : Fin 512), lidx_main_v15 (ix2 e h) k = ix2 e k := fun h k => funext fun a => Fin.ext (by
    match a with | ⟨0, _⟩ => rfl | ⟨1, _⟩ => rfl)
  have e5 : ∀ (h : Fin 256) (k : Fin 512), ridx_main_v15 (ix2 e h) k = ix2 k h := fun h k => funext fun a => Fin.ext (by
    match a with | ⟨0, _⟩ => rfl | ⟨1, _⟩ => rfl)
  have e6 : ∀ h : Fin 256, idx_main_v16 (idx_main_v17 (ix2 e h)) = ix1 h := fun h => funext fun a => Fin.ext (by
    match a with | ⟨0, _⟩ => rfl)
  rw [val_main_v23_apply, val_main_v20_apply, val_main_v22_apply, val_main_v21_apply, e3, Ideal.addf_def]
  unfold mlpRowCat
  congr 1
  refine Finset.sum_congr rfl fun h _ => ?_
  rw [e1, e2, val_main_v19_apply, val_main_v18_apply, val_main_v15_apply, val_main_v17_apply, val_main_v16_apply,
    val_main_call0_v0_apply, val_main_call0_cst_apply, e6, Ideal.maximumf_def, Ideal.addf_def, Ideal.ofBits_def,
    Ideal.ofBits_zero_f32]
  have hs : (∑ k : Fin 512, val_main_v14 (F := Ideal) x0 x1 x2 x3 (lidx_main_v15 (ix2 e h) k) * x4 (ridx_main_v15 (ix2 e h) k))
      = ∑ k : Fin 512, val_main_v14 (F := Ideal) x0 x1 x2 x3 (ix2 e k) * x4 (ix2 k h) :=
    Finset.sum_congr rfl fun k _ => by rw [e4, e5]
  rw [hs]

/-- Entry `(e, q)` of the reference's edge stage: the perceptron on the two looked-up rows of edge `e`. -/
theorem ref_edge (x0 : FVec Ideal S10000x256 .f32) (x1 : FVec Ideal S100000x256 .f32) (x2 x3 : IVec S300000 32)
    (x4 : FVec Ideal S512x256 .f32) (x5 : FVec Ideal S256 .f32) (x6 : FVec Ideal S256x256 .f32) (x7 : FVec Ideal S256 .f32)
    (e : Fin 300000) (q : Fin 256) :
    val_main_v23 (F := Ideal) x0 x1 x2 x3 x4 x5 x6 x7 (ix2 e q)
      = mlpRow (fun k => val_main_v6 (F := Ideal) x0 x2 (ix2 e k)) (fun k => val_main_v13 (F := Ideal) x1 x3 (ix2 e k))
          (fun k h => x4 (ix2 (lo k) h)) (fun k h => x4 (ix2 (hi k) h)) (fun h => x5 (ix1 h))
          (fun h q' => x6 (ix2 h q')) (fun q' => x7 (ix1 q')) q := by
  rw [edge_cat, mlpRowCat_eq]
  simp only [cat_edge_lo, cat_edge_hi]

/-- The grid stage's concatenated row at a position of the lower half is the node's own row there. -/
theorem cat_grid_lo (x0 : FVec Ideal S10000x256 .f32) (x1 : FVec Ideal S100000x256 .f32) (x2 x3 : IVec S300000 32)
    (x4 : FVec Ideal S512x256 .f32) (x5 : FVec Ideal S256 .f32) (x6 : FVec Ideal S256x256 .f32) (x7 : FVec Ideal S256 .f32)
    (i : Fin 100000) (k : Fin 256) :
    val_main_v27 (F := Ideal) x0 x1 x2 x3 x4 x5 x6 x7 (ix2 i (lo k)) = x1 (ix2 i k) := by
  unfold val_main_v27
  exact concatenate_pair_apply_left (s₁ := S100000x256) (s₂ := S100000x256) _ _ _ _ (ix2 i (lo k)) rfl (ix2 i k)
    (fun b => by match b with | ⟨0, _⟩ => rfl | ⟨1, _⟩ => rfl)

/-- The grid stage's concatenated row at a position of the upper half is the scatter-sum's row, 256 places back. -/
theorem cat_grid_hi (x0 : FVec Ideal S10000x256 .f32) (x1 : FVec Ideal S100000x256 .f32) (x2 x3 : IVec S300000 32)
    (x4 : FVec Ideal S512x256 .f32) (x5 : FVec Ideal S256 .f32) (x6 : FVec Ideal S256x256 .f32) (x7 : FVec Ideal S256 .f32)
    (i : Fin 100000) (k : Fin 256) :
    val_main_v27 (F := Ideal) x0 x1 x2 x3 x4 x5 x6 x7 (ix2 i (hi k))
      = val_main_v26 (F := Ideal) x0 x1 x2 x3 x4 x5 x6 x7 (ix2 i k) := by
  unfold val_main_v27
  exact concatenate_pair_apply_right (s₁ := S100000x256) (s₂ := S100000x256) _ _ _ _ (ix2 i (hi k)) rfl rfl (ix2 i k)
    (fun b hb => by match b with | ⟨0, _⟩ => rfl | ⟨1, _⟩ => exact absurd rfl hb)
    (by show k.val + 256 = 256 + k.val; omega)

/-- Entry `(i, q)` of the result is the node's own entry plus the perceptron on the concatenated row against the
    whole first matrix. -/
theorem grid_cat (x0 : FVec Ideal S10000x256 .f32) (x1 : FVec Ideal S100000x256 .f32) (x2 x3 : IVec S300000 32)
    (x4 : FVec Ideal S512x256 .f32) (x5 : FVec Ideal S256 .f32) (x6 : FVec Ideal S256x256 .f32) (x7 : FVec Ideal S256 .f32)
    (x8 : FVec Ideal S512x256 .f32) (x9 : FVec Ideal S256 .f32) (x10 : FVec Ideal S256x256 .f32) (x11 : FVec Ideal S256 .f32)
    (i : Fin 100000) (q : Fin 256) :
    val_main_v37 (F := Ideal) x0 x1 x2 x3 x4 x5 x6 x7 x8 x9 x10 x11 (ix2 i q)
      = x1 (ix2 i q) + mlpRowCat (fun k => val_main_v27 (F := Ideal) x0 x1 x2 x3 x4 x5 x6 x7 (ix2 i k))
          (fun k h => x8 (ix2 k h)) (fun h => x9 (ix1 h)) (fun h q' => x10 (ix2 h q')) (fun q' => x11 (ix1 q')) q := by
  have e1 : ∀ h : Fin 256, lidx_main_v33 (ix2 i q) h = ix2 i h := fun h => funext fun a => Fin.ext (by
    match a with | ⟨0, _⟩ => rfl | ⟨1, _⟩ => rfl)
  have e2 : ∀ h : Fin 256, ridx_main_v33 (ix2 i q) h = ix2 h q := fun h => funext fun a => Fin.ext (by
    match a with | ⟨0, _⟩ => rfl | ⟨1, _⟩ => rfl)
  have e3 : idx_main_v34 (idx_main_v35 (ix2 i q)) = ix1 q := funext fun a => Fin.ext (by
    match a with | ⟨0, _⟩ => rfl)
  have e4 : ∀ (h : Fin 256) (k : Fin 512), lidx_main_v28 (ix2 i h) k = ix2 i k := fun h k => funext fun a => Fin.ext (by
    match a with | ⟨0, _⟩ => rfl | ⟨1, _⟩ => rfl)
  have e5 : ∀ (h : Fin 256) (k : Fin 512), ridx_main_v28 (ix2 i h) k = ix2 k h := fun h k => funext fun a => Fin.ext (by
    match a with | ⟨0, _⟩ => rfl | ⟨1, _⟩ => rfl)
  have e6 : ∀ h : Fin 256, idx_main_v29 (idx_main_v30 (ix2 i h)) = ix1 h := fun h => funext fun a => Fin.ext (by
    match a with | ⟨0, _⟩ => rfl)
  rw [val_main_v37_apply, val_main_v36_apply, val_main_v33_apply, val_main_v35_apply, val_main_v34_apply, e3,
    Ideal.addf_def, Ideal.addf_def]
  unfold mlpRowCat
  congr 2
  refine Finset.sum_congr rfl fun h _ => ?_
  rw [e1, e2, val_main_v32_apply, val_main_v31_apply, val_main_v28_apply, val_main_v30_apply, val_main_v29_apply,
    val_main_call1_v0_apply, val_main_call1_cst_apply, e6, Ideal.maximumf_def, Ideal.addf_def, Ideal.ofBits_def,
    Ideal.ofBits_zero_f32]
  have hs : (∑ k : Fin 512, val_main_v27 (F := Ideal) x0 x1 x2 x3 x4 x5 x6 x7 (lidx_main_v28 (ix2 i h) k)
        * x8 (ridx_main_v28 (ix2 i h) k))
      = ∑ k : Fin 512, val_main_v27 (F := Ideal) x0 x1 x2 x3 x4 x5 x6 x7 (ix2 i k) * x8 (ix2 k h) :=
    Finset.sum_congr rfl fun k _ => by rw [e4, e5]
  rw [hs]

/-- Entry `(i, q)` of the reference's result: grid node `i`'s own entry plus the perceptron on its own row and the row
    the scatter-sum gives it. -/
theorem ref_grid (x0 : FVec Ideal S10000x256 .f32) (x1 : FVec Ideal S100000x256 .f32) (x2 x3 : IVec S300000 32)
    (x4 : FVec Ideal S512x256 .f32) (x5 : FVec Ideal S256 .f32) (x6 : FVec Ideal S256x256 .f32) (x7 : FVec Ideal S256 .f32)
    (x8 : FVec Ideal S512x256 .f32) (x9 : FVec Ideal S256 .f32) (x10 : FVec Ideal S256x256 .f32) (x11 : FVec Ideal S256 .f32)
    (i : Fin 100000) (q : Fin 256) :
    val_main_v37 (F := Ideal) x0 x1 x2 x3 x4 x5 x6 x7 x8 x9 x10 x11 (ix2 i q)
      = x1 (ix2 i q) + mlpRow (fun k => x1 (ix2 i k)) (fun k => val_main_v26 (F := Ideal) x0 x1 x2 x3 x4 x5 x6 x7 (ix2 i k))
          (fun k h => x8 (ix2 (lo k) h)) (fun k h => x8 (ix2 (hi k) h)) (fun h => x9 (ix1 h))
          (fun h q' => x10 (ix2 h q')) (fun q' => x11 (ix1 q')) q := by
  rw [grid_cat, mlpRowCat_eq]
  simp only [cat_grid_lo, cat_grid_hi]

end Cert.MeshGrid.Ref

end
-- ==== Proof.Bridge.lean ====
/-
  The kernel program's result array is the reference's function of the twelve argument arrays.

  Both programs compute, for every edge, a perceptron of the edge's two looked-up feature rows; sum the edges'
  outputs into their destination grid nodes; and add to every grid node's row a second perceptron of that row and
  the summed row. Under the precondition the two programs look the same rows up (`Take.lean`), the first kernel region
  leaves in its output array what the reference's edge stage computes, entry by entry (the perceptron on split
  halves against the perceptron on the concatenated row: `Spec.lean`), so the two scatter-sums are the same
  operation applied to equal arrays and need not be opened; and the second region leaves, entry by entry, what the
  reference's last stage computes.
-/
import proofs.«429466_j58171037057097_1_alg».proof.Proof.Gen.KernelIdeal.Frame
import proofs.«429466_j58171037057097_1_alg».proof.Proof.RegionArr
import proofs.«429466_j58171037057097_1_alg».proof.Proof.HostStretch
import proofs.«429466_j58171037057097_1_alg».proof.Proof.Take
import proofs.«429466_j58171037057097_1_alg».proof.Proof.Layout
import proofs.«429466_j58171037057097_1_alg».proof.Proof.RefValue

set_option maxRecDepth 16384

noncomputable section

namespace Cert.MeshGrid.Bridge

open Cert.KernelIdeal Cert.KernelIdeal.Gen Idealize.ShloMosaic Idealize.ShloMosaic.TcCoe Idealize.SL.Sem
open Idealize.ShloMosaic.ValueIdx
open Cert.MeshGrid Cert.MeshGrid.Host Cert.MeshGrid.Arr Cert.MeshGrid.Take Cert.MeshGrid.Layout

variable (m : (ℓ : Loc nD τ sig) → Buf (Elt Ideal) ℓ) (ρ : Dev nD → PrngReg)

/-- The reference's edge stage, its scatter-sum and its result, as functions of this program's launch memory. -/
abbrev refEdge (c : Dev nD) : FVec Ideal S300000x256 .f32 :=
  Cert.ReferenceIdeal.Read.val_main_v23 (F := Ideal) (meshX m c) (gridX m c) (src m c) (dst m c) (w1e m c) (b1e m c) (w2e m c) (b2e m c)
abbrev refAgg (c : Dev nD) : FVec Ideal S100000x256 .f32 :=
  Cert.ReferenceIdeal.Read.val_main_v26 (F := Ideal) (meshX m c) (gridX m c) (src m c) (dst m c) (w1e m c) (b1e m c) (w2e m c) (b2e m c)
abbrev refResult (c : Dev nD) : FVec Ideal S100000x256 .f32 :=
  Cert.ReferenceIdeal.Read.val_main_v37 (F := Ideal) (meshX m c) (gridX m c) (src m c) (dst m c) (w1e m c) (b1e m c) (w2e m c) (b2e m c)
    (w1g m c) (b1g m c) (w2g m c) (b2g m c)

/-- Under the precondition the kernel program's looked-up mesh rows are the reference's. -/
theorem mesh_rows (hpre : Cert.Pre_KernelIdeal m) (c : Dev nD) :
    V3 m ρ c main_v0 = Cert.ReferenceIdeal.Read.val_main_v6 (F := Ideal) (meshX m c) (src m c) := by
  rw [V3_v0, select_rows_of_all _ (inRangeMask_mesh _ (pre_src m hpre c))]
  rfl

/-- Under the precondition the kernel program's looked-up grid rows are the reference's. -/
theorem grid_rows (hpre : Cert.Pre_KernelIdeal m) (c : Dev nD) :
    V3 m ρ c main_v1 = Cert.ReferenceIdeal.Read.val_main_v13 (F := Ideal) (gridX m c) (dst m c) := by
  rw [V3_v1, select_rows_of_all _ (inRangeMask_grid _ (pre_dst m hpre c))]
  rfl

/-- The first region's output array is the reference's edge stage. -/
theorem edge_eq (hpre : Cert.Pre_KernelIdeal m) (c : Dev nD) : eOut (V3 m ρ) c = refEdge m c := by
  funext i
  obtain ⟨e, q, rfl⟩ : ∃ (e : Fin 300000) (q : Fin 256), i = ix2 e q := ⟨i 0, i 1, eq_ix2 i⟩
  refine (edge_arr (V3 m ρ) c e q).trans ?_
  refine Eq.trans ?_ (Cert.MeshGrid.Ref.ref_edge (meshX m c) (gridX m c) (src m c) (dst m c) (w1e m c) (b1e m c) (w2e m c) (b2e m c) e q).symm
  have a0 : (fun k : Fin 256 => eA0 (V3 m ρ) c (ix2 e k))
      = fun k => Cert.ReferenceIdeal.Read.val_main_v6 (F := Ideal) (meshX m c) (src m c) (ix2 e k) :=
    funext fun k => congrFun (mesh_rows m ρ hpre c) (ix2 e k)
  have a1 : (fun k : Fin 256 => eA1 (V3 m ρ) c (ix2 e k))
      = fun k => Cert.ReferenceIdeal.Read.val_main_v13 (F := Ideal) (gridX m c) (dst m c) (ix2 e k) :=
    funext fun k => congrFun (grid_rows m ρ hpre c) (ix2 e k)
  have a2 : (fun k h : Fin 256 => eA2 (V3 m ρ) c (ix2 k h)) = fun k h => w1e m c (ix2 (lo k) h) :=
    funext fun k => funext fun h => (congrFun (V3_v2 m ρ c) (ix2 k h)).trans (slice_top _ k h)
  have a3 : (fun k h : Fin 256 => eA3 (V3 m ρ) c (ix2 k h)) = fun k h => w1e m c (ix2 (hi k) h) :=
    funext fun k => funext fun h => (congrFun (V3_v3 m ρ c) (ix2 k h)).trans (slice_bot _ k h)
  have a4 : (fun h : Fin 256 => eA4 (V3 m ρ) c (ix2 (0 : Fin 1) h)) = fun h => b1e m c (ix1 h) :=
    funext fun h => (congrFun (V3_v4 m ρ c) (ix2 (0 : Fin 1) h)).trans (row_of_vec _ h)
  have a5 : (fun h q' : Fin 256 => eA5 (V3 m ρ) c (ix2 h q')) = fun h q' => w2e m c (ix2 h q') :=
    funext fun h => funext fun q' => congrFun (V3_arg6 m ρ c) (ix2 h q')
  have a6 : (fun q' : Fin 256 => eA6 (V3 m ρ) c (ix2 (0 : Fin 1) q')) = fun q' => b2e m c (ix1 q') :=
    funext fun q' => (congrFun (V3_v5 m ρ c) (ix2 (0 : Fin 1) q')).trans (row_of_vec _ q')
  rw [a0, a1, a2, a3, a4, a5, a6]

/-- The scatter-sum the second region reads is the reference's. -/
theorem agg_eq (hpre : Cert.Pre_KernelIdeal m) (c : Dev nD) : V5 m ρ c main_v9 = refAgg m c := by
  rw [V5_v9]
  rw [show (dat0 (V3 m ρ) c).arrAt 7 cfg0.N = refEdge m c from edge_eq m ρ hpre c]
  rfl

/-- After the run the kernel program's result buffer holds the reference's result. -/
theorem kernel_value (hpre : Cert.Pre_KernelIdeal m) (c : Dev nD) :
    W6 m ρ c (Proc.devRef .tc main_v14) = refResult m c := by
  refine (W6_arr m ρ c 7).trans ?_
  show gOut (V5 m ρ) c = refResult m c
  funext i
  obtain ⟨i0, q, rfl⟩ : ∃ (i0 : Fin 100000) (q : Fin 256), i = ix2 i0 q := ⟨i 0, i 1, eq_ix2 i⟩
  refine (grid_arr (V5 m ρ) c i0 q).trans ?_
  refine Eq.trans ?_ (Cert.MeshGrid.Ref.ref_grid (meshX m c) (gridX m c) (src m c) (dst m c) (w1e m c) (b1e m c) (w2e m c) (b2e m c)
    (w1g m c) (b1g m c) (w2g m c) (b2g m c) i0 q).symm
  have g0 : gA0 (V5 m ρ) c = gridX m c := V5_arg1 m ρ c
  have a1 : (fun k : Fin 256 => gA1 (V5 m ρ) c (ix2 i0 k)) = fun k => refAgg m c (ix2 i0 k) :=
    funext fun k => congrFun (agg_eq m ρ hpre c) (ix2 i0 k)
  have a2 : (fun k h : Fin 256 => gA2 (V5 m ρ) c (ix2 k h)) = fun k h => w1g m c (ix2 (lo k) h) :=
    funext fun k => funext fun h => (congrFun (V5_v10 m ρ c) (ix2 k h)).trans (slice_top _ k h)
  have a3 : (fun k h : Fin 256 => gA3 (V5 m ρ) c (ix2 k h)) = fun k h => w1g m c (ix2 (hi k) h) :=
    funext fun k => funext fun h => (congrFun (V5_v11 m ρ c) (ix2 k h)).trans (slice_bot _ k h)
  have a4 : (fun h : Fin 256 => gA4 (V5 m ρ) c (ix2 (0 : Fin 1) h)) = fun h => b1g m c (ix1 h) :=
    funext fun h => (congrFun (V5_v12 m ρ c) (ix2 (0 : Fin 1) h)).trans (row_of_vec _ h)
  have a5 : (fun h q' : Fin 256 => gA5 (V5 m ρ) c (ix2 h q')) = fun h q' => w2g m c (ix2 h q') :=
    funext fun h => funext fun q' => congrFun (V5_arg10 m ρ c) (ix2 h q')
  have a6 : (fun q' : Fin 256 => gA6 (V5 m ρ) c (ix2 (0 : Fin 1) q')) = fun q' => b2g m c (ix1 q') :=
    funext fun q' => (congrFun (V5_v13 m ρ c) (ix2 (0 : Fin 1) q')).trans (row_of_vec _ q')
  rw [a1, a2, a3, a4, a5, a6, g0]

end Cert.MeshGrid.Bridge

end
-- ==== Proof.lean ====
/-
  The certificate of the message-passing kernel against its reference, over the extended reals.

  The kernel program computes `grid_x + MLP_g([grid_x, agg])` with `agg` the sum over the edges into each grid node of
  `MLP_e([mesh_x[src], grid_x[dst]])`, each two-layer perceptron run block of rows by block of rows in its own kernel
  region with its first weight matrix split into the halves that meet the two concatenated feature halves; the
  reference computes the same with the features concatenated and the whole matrices. The three frames are the
  generated ones (the reference's is its run with the result dropped). The idealization's ledger is empty. For the
  value: under the precondition (every float finite; every index word a row number of the table it indexes) the
  kernel program's result buffer ends at the last segment boundary's contents, which `Bridge.lean` shows to be the
  reference's result term of the same argument arrays; the reference's run ends at that term of its own arguments,
  which agree with the kernel program's.
-/
import proofs.«429466_j58171037057097_1_alg».proof.Defs
import proofs.«429466_j58171037057097_1_alg».proof.Proof.Gen.Kernel
import proofs.«429466_j58171037057097_1_alg».proof.Proof.Gen.Kernel.Skeleton
import proofs.«429466_j58171037057097_1_alg».proof.Proof.Gen.Kernel.Launch
import proofs.«429466_j58171037057097_1_alg».proof.Proof.Gen.Kernel.Points
import proofs.«429466_j58171037057097_1_alg».proof.Proof.Gen.Kernel.Frame
import proofs.«429466_j58171037057097_1_alg».proof.Proof.Gen.KernelIdeal
import proofs.«429466_j58171037057097_1_alg».proof.Proof.Gen.KernelIdeal.Skeleton
import proofs.«429466_j58171037057097_1_alg».proof.Proof.Gen.KernelIdeal.Launch
import proofs.«429466_j58171037057097_1_alg».proof.Proof.Gen.KernelIdeal.Points
import proofs.«429466_j58171037057097_1_alg».proof.Proof.Gen.KernelIdeal.Frame
import proofs.«429466_j58171037057097_1_alg».proof.Proof.Gen.ReferenceIdeal
import proofs.«429466_j58171037057097_1_alg».proof.Proof.Gen.ReferenceIdeal.Run
import proofs.«429466_j58171037057097_1_alg».proof.Proof.Gen.ReferenceIdeal.Read
import proofs.«429466_j58171037057097_1_alg».proof.Proof.Gen.Pre_finite_inputs
import proofs.«429466_j58171037057097_1_alg».proof.Proof.KernelRun
import proofs.«429466_j58171037057097_1_alg».proof.Proof.Bridge
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The idealized reference runs and keeps its arguments: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both idealized programs run, and end with one result. -/
theorem algebraic : Cert.algebraic_KernelIdeal_ReferenceIdeal := by
  intro m ρ m' ρ' hpre hagree
  refine ⟨fun c => Cert.MeshGrid.Bridge.refResult m c, ?_, ?_⟩
  · exact (θ_run Cert.KernelIdeal.defs _ _).mono
      (fun r h c => ⟨(h c).1.trans (Cert.MeshGrid.Bridge.kernel_value m ρ hpre c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11⟩ := hagree c
    rw [h0, h1, h2, h3, h4, h5, h6, h7, h8, h9, h10, h11]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
